-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S8192x8192 : Shape := ⟨2, ![8192, 8192]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x256 .f32) (main_arg1 : FVec F S8192 .f32) (main_arg2 : FVec F S8192x8192 .f32) (main_arg3 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x256 : Shape := ⟨2, ![8192, 256]⟩
abbrev S8192 : Shape := ⟨1, ![8192]⟩
abbrev S8192x8192 : Shape := ⟨2, ![8192, 8192]⟩
abbrev S1 : Shape := ⟨1, ![1]⟩
abbrev S_ : Shape := ⟨0, ![]⟩
abbrev S8192x1 : Shape := ⟨2, ![8192, 1]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S8192x8192, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x256, .f32⟩
  | .hbm, ⟨14, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x1024, .f32⟩
  | .local _ .vmem, ⟨10, _⟩ => ⟨S1024x1024, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1_S_ : S1.ShapeCasts S_
  bcast_S_S8192 : S_.BroadcastsInDim S8192 (![] : Fin 0 → Fin S8192.rank)
  bcast_S8192_S8192x1_0 : S8192.BroadcastsInDim S8192x1 (![0] : Fin 1 → Fin S8192x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  dot_S1024x1024_S1024x256_S1024x256_0_0_1_1_n_n_wf : DotDims.WF S1024x1024 S1024x256 S1024x256 [0] [0] [1] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)

variable [Facts₀]

def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S8192x8192 : Shape := ⟨2, ![8192, 8192]⟩
abbrev S1 : Shape := ⟨1, ![1]⟩
abbrev S_ : Shape := ⟨0, ![]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S8192x8192, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x256, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x256, .f32⟩
  | .hbm, ⟨15, _⟩ => ⟨S8192x256, .f32⟩
  | .hbm, ⟨16, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  shapeCasts_S1_S_ : S1.ShapeCasts S_
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x8192_S8192x256_S8192x256_0_0_1_1_n_n_wf : DotDims.WF S8192x8192 S8192x256 S8192x256 [0] [0] [1] [1] [] []
  dot_S8192x8192_S8192x256_S8192x256_1_0_0_1_n_n_wf : DotDims.WF S8192x8192 S8192x256 S8192x256 [1] [0] [0] [1] [] []

variable [Facts₀]

def dot_S8192x8192_S8192x256_S8192x256_0_0_1_1_n_n : DotDims S8192x8192 S8192x256 S8192x256 where
  lhsContracting := [0]
  rhsContracting := [0]
  lhsNonContracting := [1]
  rhsNonContracting := [1]
  lhsBatch := []
  rhsBatch := []
  wf := dot_S8192x8192_S8192x256_S8192x256_0_0_1_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Bits.SpecBody.lean ====
/-
  The spectral-projection kernel's body at one grid point, as three Hoare triples over arbitrary whole buffers.
  The grid is (column tile ki, row tile ni), ni innermost. At a point the body
    * at ni = 0 first overwrites the accumulator with zeros,
    * adds (evecs block)ᵀ · (x block), contracted over the 1024 rows of the tile, to the accumulator,
    * at ni = 7 writes accumulator × (coefficient column, broadcast along the 256 channels) to the output block.
  So with accumulator contents `s` on entry the accumulator ends at `pay2 e x s` (at ni = 0: `pay2 e x 0`), and the
  output block is touched only at ni = 7, where it ends at `pay3 (pay2 e x s) k`.
-/
import proofs.«117679_j80891414053479_1_alg».proof.Proof.Gen.Kernel.Launch
import proofs.«117679_j80891414053479_1_alg».proof.Proof.Gen.Kernel.Skeleton
import proofs.«117679_j80891414053479_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The inner grid coordinate is 0 (the test the body makes before it clears the accumulator). -/
abbrev first0 (i : grid0.Coords) : Prop :=
  (Scalar.cmpi .ne (Scalar.extui (Scalar.cmpi .eq (BitVec.ofNat 32 (i 1).val) 0#32)) 0#32) = 1#1
/-- The inner grid coordinate is 7 (the test the body makes before it writes the output block). -/
abbrev last0 (i : grid0.Coords) : Prop := k0_cond2 i = 1#1

section
variable (c : Dev nD) (E : Set ℕ) (i : grid0.Coords)
  (arg2 : Memref sig .tc .vmem S1024x1024 .f32) (harg2 : arg2.IsWhole)
  (arg3 : Memref sig .tc .vmem S1024x256 .f32) (harg3 : arg3.IsWhole)
  (arg4 : Memref sig .tc .vmem S1024x1 .f32) (harg4 : arg4.IsWhole)
  (arg5 : Memref sig .tc .vmem S1024x256 .f32) (harg5 : arg5.IsWhole)
  (arg6 : Memref sig .tc .vmem S1024x256 .f32) (harg6 : arg6.IsWhole)
  (e : Vec F S1024x1024 .f32) (x : Vec F S1024x256 .f32) (k : Vec F S1024x1 .f32) (o s : Vec F S1024x256 .f32)

/-- The offsets `[0, 0]` are the zero offsets. -/
private theorem hz : (![0, 0] : Fin 2 → Nat) = fun _ => 0 := funext fun a => by fin_cases a <;> rfl

/-- A load of a whole buffer through the whole-shape rectangle at zero offsets reads the buffer's contents. -/
private theorem load_whole {S : Shape} {t : EltTy} (m : Memref sig .tc .vmem S t) (h : m.IsWhole)
    {off : Fin S.rank → Nat} (hoff : off = fun _ => 0) (inb : ∀ a, off a + S.size a ≤ S.size a) (X : S.Idx → Elt F t) :
    View.readAt (Elt F) m.view (Rect.unit off S.size inb).toLoadRect (h.unread X) = X := by
  rw [View.readAt_eq_ld, h.read_unread, View.ld_unit_zero hoff]

/-- A store through the whole-shape rectangle at zero offsets, made last, leaves its payload as the contents read,
    whatever was stored before it. -/
private theorem store_whole {S : Shape} {t : EltTy} (m : Memref sig .tc .vmem S t)
    {off : Fin S.rank → Nat} (hoff : off = fun _ => 0) (inb : ∀ a, off a + S.size a ≤ S.size a)
    (f : m.view.ty.Contents (Elt F)) (w : S.Idx → Elt F t) (L : List (View.Piece (Elt F) S t)) :
    m.view.read (Elt F) (m.view.writes (Elt F) f (⟨Rect.unit off S.size inb, w⟩ :: L)) = w := by
  rw [View.read_writes_eq_canon _ _ _ (fun y => ⟨_, List.mem_cons_self, View.mem_set_unit_zero hoff inb y⟩),
    View.canon_cons_unit_zero hoff]

/-- ni = 0: the accumulator restarts from zero; the output block is left as found. -/
theorem spec_first (h0 : first0 i) (h1 : ¬ last0 i) (K : PUnit → sProp 𝕄) :
    iprop(owns (c : Thread nD τ) arg2 fullShare e ∗ owns (c : Thread nD τ) arg3 fullShare x ∗ owns (c : Thread nD τ) arg4 fullShare k
        ∗ owns (c : Thread nD τ) arg5 fullShare o ∗ owns (c : Thread nD τ) arg6 fullShare s
        ∗ (iprop(owns (c : Thread nD τ) arg2 fullShare e ∗ owns (c : Thread nD τ) arg3 fullShare x ∗ owns (c : Thread nD τ) arg4 fullShare k
            ∗ owns (c : Thread nD τ) arg5 fullShare o ∗ owns (c : Thread nD τ) arg6 fullShare (k0_pay2 e x (k0_pay1 (F := F)))) -∗ K ⟨⟩))
      ⊢ wp frame (wpE (defs₀ (F := F)) Variants.none c none) E (cc0__spec_kernel i arg2 harg2 arg3 harg3 arg4 harg4 arg5 harg5 arg6 harg6) K := by
  simp only [cc0__spec_kernel_eq_skeleton]; unfold cc0__spec_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  -- each buffer is whole, so its raw contents are determined by what it reads
  obtain rfl := harg2.eq_unread hf2; obtain rfl := harg3.eq_unread hf3; obtain rfl := harg4.eq_unread hf4
  obtain rfl := harg5.eq_unread hf5; obtain rfl := harg6.eq_unread hf6
  sl_exec (disch := first | exact h0 | exact h1)
  sl_step
  iapply Hk
  -- the three inputs are only read
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the output block is not stored
  isplitl [H5]
  · iexists _; isplitr; · ipureintro; exact harg5.read_unread _
    iexact H5
  iexists _; isplitr; swap; · iexact H6
  ipureintro
  -- the accumulator: the last store covers it, and the load between the two stores reads the zeros back
  sl_unfold_words
  rw [store_whole _ hz, load_whole _ _ hz, load_whole _ _ hz, View.readCov_unit_zero _ hz]

/-- 0 < ni < 7: the accumulator gains this tile's product; the output block is left as found. -/
theorem spec_mid (h0 : ¬ first0 i) (h1 : ¬ last0 i) (K : PUnit → sProp 𝕄) :
    iprop(owns (c : Thread nD τ) arg2 fullShare e ∗ owns (c : Thread nD τ) arg3 fullShare x ∗ owns (c : Thread nD τ) arg4 fullShare k
        ∗ owns (c : Thread nD τ) arg5 fullShare o ∗ owns (c : Thread nD τ) arg6 fullShare s
        ∗ (iprop(owns (c : Thread nD τ) arg2 fullShare e ∗ owns (c : Thread nD τ) arg3 fullShare x ∗ owns (c : Thread nD τ) arg4 fullShare k
            ∗ owns (c : Thread nD τ) arg5 fullShare o ∗ owns (c : Thread nD τ) arg6 fullShare (k0_pay2 e x s)) -∗ K ⟨⟩))
      ⊢ wp frame (wpE (defs₀ (F := F)) Variants.none c none) E (cc0__spec_kernel i arg2 harg2 arg3 harg3 arg4 harg4 arg5 harg5 arg6 harg6) K := by
  simp only [cc0__spec_kernel_eq_skeleton]; unfold cc0__spec_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  -- each buffer is whole, so its raw contents are determined by what it reads
  obtain rfl := harg2.eq_unread hf2; obtain rfl := harg3.eq_unread hf3; obtain rfl := harg4.eq_unread hf4
  obtain rfl := harg5.eq_unread hf5; obtain rfl := harg6.eq_unread hf6
  sl_exec (disch := first | exact h0 | exact h1)
  sl_step
  iapply Hk
  -- the three inputs are only read
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the output block is not stored
  isplitl [H5]
  · iexists _; isplitr; · ipureintro; exact harg5.read_unread _
    iexact H5
  iexists _; isplitr; swap; · iexact H6
  ipureintro
  -- the accumulator: its one store covers it, and the payload's loads read e, x and the entry contents s
  rw [store_whole _ hz, load_whole _ _ hz, load_whole _ _ hz, load_whole _ _ hz]

/-- ni = 7: the accumulator gains this tile's product and the output block receives it scaled by the coefficient column. -/
theorem spec_last (h0 : ¬ first0 i) (h1 : last0 i) (K : PUnit → sProp 𝕄) :
    iprop(owns (c : Thread nD τ) arg2 fullShare e ∗ owns (c : Thread nD τ) arg3 fullShare x ∗ owns (c : Thread nD τ) arg4 fullShare k
        ∗ owns (c : Thread nD τ) arg5 fullShare o ∗ owns (c : Thread nD τ) arg6 fullShare s
        ∗ (iprop(owns (c : Thread nD τ) arg2 fullShare e ∗ owns (c : Thread nD τ) arg3 fullShare x ∗ owns (c : Thread nD τ) arg4 fullShare k
            ∗ owns (c : Thread nD τ) arg5 fullShare (k0_pay3 (k0_pay2 e x s) k) ∗ owns (c : Thread nD τ) arg6 fullShare (k0_pay2 e x s)) -∗ K ⟨⟩))
      ⊢ wp frame (wpE (defs₀ (F := F)) Variants.none c none) E (cc0__spec_kernel i arg2 harg2 arg3 harg3 arg4 harg4 arg5 harg5 arg6 harg6) K := by
  simp only [cc0__spec_kernel_eq_skeleton]; unfold cc0__spec_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  -- each buffer is whole, so its raw contents are determined by what it reads
  obtain rfl := harg2.eq_unread hf2; obtain rfl := harg3.eq_unread hf3; obtain rfl := harg4.eq_unread hf4
  obtain rfl := harg5.eq_unread hf5; obtain rfl := harg6.eq_unread hf6
  sl_exec (disch := first | exact h0 | exact h1)
  sl_step
  iapply Hk
  -- the three inputs are only read
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the output block: its one store covers it; the accumulator loaded after its store reads that store's payload
  isplitl [H5]
  · iexists _; isplitr; swap; · iexact H5
    ipureintro
    sl_unfold_words
    rw [store_whole _ hz, load_whole _ _ hz, View.readCov_unit_zero _ hz, load_whole _ _ hz, load_whole _ _ hz,
      load_whole _ _ hz]
  iexists _; isplitr; swap; · iexact H6
  ipureintro
  -- the accumulator, as at an inner point
  sl_unfold_words
  rw [store_whole _ hz, load_whole _ _ hz, load_whole _ _ hz, load_whole _ _ hz]

end

end Cert.Kernel.Run

end
-- ==== Proof.Bits.SpecData.lean ====
/-
  The proof data of the spectral-projection region: what every staging buffer and the accumulator hold after each
  grid point, and the region's per-point obligation.
  Point t is (ki, ni) = (t / 8, t % 8). The three inputs keep their blocks. The accumulator after point t is
  `accAt0 (t + 1)`: the tile products of row tiles 0 … ni of column tile ki, added to zero. The output's staging
  buffer after point t is the accumulator scaled by the coefficient block; it is written back only at ni = 7.
-/
import proofs.«117679_j80891414053479_1_alg».proof.Proof.Bits.SpecBody
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n - 1` (anything fixed before the first point): over what the point before left,
    restarted from zero where the inner coordinate is 0. -/
def accAt0 (c : Dev nD) : ℕ → Vec F S1024x256 .f32
  | 0 => k0_pay1
  | n + 1 =>
    if h : n < cfg0.N then
      k0_pay2 (iblk0 V c 0 ⟨n, h⟩) (iblk0 V c 1 ⟨n, h⟩) (if n % 8 = 0 then k0_pay1 else accAt0 c n)
    else accAt0 c n

theorem accAt0_succ (c : Dev nD) (t : Fin cfg0.N) :
    accAt0 V c (t.val + 1) = k0_pay2 (iblk0 V c 0 t) (iblk0 V c 1 t) (if t.val % 8 = 0 then k0_pay1 else accAt0 V c t.val) := by
  rw [accAt0, dif_pos t.isLt]

/-- The accumulator buffer, and the core's other scoped buffers that are no staging buffer of this region. -/
abbrev scM0 : Memref sig .tc .vmem S1024x256 .f32 := Memref.whole cc0_scratch0
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant before point `t`: the accumulator at some contents, which after the first point are the
    accumulated ones; the other scoped buffers and the generator register, unread. -/
def Phi0 (c : Dev nD) (t : Fin (cfg0.N + 1)) : sProp 𝕄 :=
  iprop((∃ d, ⌜t.val ≠ 0 → d = accAt0 V c t.val⌝ ∗ owns (c : Thread nD τ) scM0 fullShare d) ∗ others0 (F := F) c ∗ ∃ r, prngReg c r)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c (t.val + 1)) (iblk0 V c 2 t)
  Φ t := Phi0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt0 V c (t.val + 1)) (iblk0 V c 2 t) := by dsimp only [dat0]
theorem Phi_eq0 (c : Dev nD) (t : Fin (cfg0.N + 1)) : (dat0 V c).Φ t = Phi0 V c t := by dsimp only [dat0]

/-! ## The grid in closed form

Point `t` has inner coordinate `t % 8`: the body's two tests, and where the output window is idle. -/

/-- The body's first test holds exactly where the inner coordinate is 0. -/
theorem hfirst0 : ∀ t : Fin cfg0.N, first0 (grid0.coords t) ↔ t.val % 8 = 0 :=
  (by decide +kernel : ∀ t : Fin grid0.N, first0 (grid0.coords t) ↔ t.val % 8 = 0)
/-- Its second test holds exactly where the inner coordinate is 7. -/
theorem hlast0 : ∀ t : Fin cfg0.N, last0 (grid0.coords t) ↔ t.val % 8 = 7 :=
  (by decide +kernel : ∀ t : Fin grid0.N, last0 (grid0.coords t) ↔ t.val % 8 = 7)
/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle, and not written back, away from inner coordinate 7, and live there. -/
theorem idle0_3 : ∀ t : Fin cfg0.N, ¬ t.val % 8 = 7 → cfg0.idle 3 (grid0.coords t) = true := by decide +kernel
theorem live0_3 : ∀ t : Fin cfg0.N, t.val % 8 = 7 → cfg0.idle 3 (grid0.coords t) = false := by decide +kernel
theorem noFlush0_3 : ∀ t : Fin cfg0.N, ¬ t.val % 8 = 7 → (cfg0.win 3).flush t = false := by decide +kernel

/-! ## What the body finds in the input windows -/

/-- Each input's current staging buffer holds its block at every point, fetched there or not: where it is not
    fetched its block index has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- What the body must leave in each window's current buffer: an input's block, as found; the output's buffer as found
    where it is idle, and the scaled accumulator where it is written back. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3_idle (c : Dev nD) (t : Fin cfg0.N) (h : ¬ t.val % 8 = 7) :
    (dat0 V c).leavesExact 3 t = iprop(∃ d, owns (c : Thread nD τ) (st0_3 t) fullShare ((dat0 V c).before 3 t d)) :=
  Dat.leavesExact_idle (dat0 V c) 3 t (idle0_3 t h) (noFlush0_3 t h)
theorem leaves0_3_live (c : Dev nD) (t : Fin cfg0.N) (h : t.val % 8 = 7) :
    (dat0 V c).leavesExact 3 t = owns (c : Thread nD τ) (st0_3 t) fullShare (k0_pay3 (accAt0 V c (t.val + 1)) (iblk0 V c 2 t)) := by
  unfold Dat.leavesExact; rw [live0_3 t h, after0_3]

set_option maxHeartbeats 4800000 in
/-- The body at any point. The inputs' buffers hold their blocks; the invariant hands over the accumulator, which after
    the first point holds `accAt0 t`; the inner coordinate selects the triple; the accumulator comes back at
    `accAt0 (t + 1)` by the recursion's step, and at inner coordinate 7 the output buffer at that, scaled. The core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [leaves0_0, leaves0_1, leaves0_2]
  rw [Phi_eq0, Phi_eq0]; unfold Phi0
  have hN : t.val < 64 := lt_of_lt_of_eq t.isLt (show cfg0.N = 64 from N_0)
  have hsucc : (t.succ).val = t.val + 1 := Fin.val_succ t
  have hcast : (t.castSucc).val = t.val := Fin.coe_castSucc t
  by_cases h0 : t.val % 8 = 0
  · -- the inner coordinate is 0: the accumulator restarts; the output block is idle
    have h1 : ¬ t.val % 8 = 7 := by omega
    rw [leaves0_3_idle V c t h1]
    iintro ⟨⟨⟨%d, %hd, HS⟩, Hoth, Hg⟩, Ho, ⟨%d0, H0⟩, ⟨%d1, H1⟩, ⟨%d2, H2⟩, ⟨%d3, H3⟩⟩
    iapply (spec_first c Set.univ (grid0.coords t) _ _ _ _ _ _ _ _ _ _ (iblk0 V c 0 t) (iblk0 V c 1 t) (iblk0 V c 2 t)
      ((dat0 V c).before 3 t d3) d ((hfirst0 t).mpr h0) (fun h => h1 ((hlast0 t).mp h)) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS]
      · iexists (k0_pay2 (iblk0 V c 0 t) (iblk0 V c 1 t) (k0_pay1 (F := F)))
        isplitr
        · ipureintro; intro _; rw [hsucc, accAt0_succ, if_pos h0]
        iexact HS
      isplitl [Hoth]; · iexact Hoth
      iexact Hg
    isplitl [Ho]; · iexact Ho
    isplitl [H0]; · iexact H0
    isplitl [H1]; · iexact H1
    isplitl [H2]; · iexact H2
    iexists _; iexact H3
  · have hz : t.val ≠ 0 := fun hz => h0 (by rw [hz])
    by_cases h1 : t.val % 8 = 7
    · -- the inner coordinate is 7: the accumulator gains the tile's product and the output block is written
      rw [leaves0_3_live V c t h1, accAt0_succ, if_neg h0]
      iintro ⟨⟨⟨%d, %hd, HS⟩, Hoth, Hg⟩, Ho, ⟨%d0, H0⟩, ⟨%d1, H1⟩, ⟨%d2, H2⟩, ⟨%d3, H3⟩⟩
      have hd' : d = accAt0 V c t.val := by
        have := hd (by rw [hcast]; exact hz)
        rwa [hcast] at this
      subst hd'
      iapply (spec_last c Set.univ (grid0.coords t) _ _ _ _ _ _ _ _ _ _ (iblk0 V c 0 t) (iblk0 V c 1 t) (iblk0 V c 2 t)
        ((dat0 V c).before 3 t d3) (accAt0 V c t.val) (fun h => h0 ((hfirst0 t).mp h)) ((hlast0 t).mpr h1) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]
        · iexists (k0_pay2 (iblk0 V c 0 t) (iblk0 V c 1 t) (accAt0 V c t.val))
          isplitr
          · ipureintro; intro _; rw [hsucc, accAt0_succ, if_neg h0]
          iexact HS
        isplitl [Hoth]; · iexact Hoth
        iexact Hg
      isplitl [Ho]; · iexact Ho
      isplitl [H0]; · iexact H0
      isplitl [H1]; · iexact H1
      isplitl [H2]; · iexact H2
      iexact H3
    · -- between: the accumulator gains the tile's product; the output block is idle
      rw [leaves0_3_idle V c t h1]
      iintro ⟨⟨⟨%d, %hd, HS⟩, Hoth, Hg⟩, Ho, ⟨%d0, H0⟩, ⟨%d1, H1⟩, ⟨%d2, H2⟩, ⟨%d3, H3⟩⟩
      have hd' : d = accAt0 V c t.val := by
        have := hd (by rw [hcast]; exact hz)
        rwa [hcast] at this
      subst hd'
      iapply (spec_mid c Set.univ (grid0.coords t) _ _ _ _ _ _ _ _ _ _ (iblk0 V c 0 t) (iblk0 V c 1 t) (iblk0 V c 2 t)
        ((dat0 V c).before 3 t d3) (accAt0 V c t.val) (fun h => h0 ((hfirst0 t).mp h)) (fun h => h1 ((hlast0 t).mp h)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]
        · iexists (k0_pay2 (iblk0 V c 0 t) (iblk0 V c 1 t) (accAt0 V c t.val))
          isplitr
          · ipureintro; intro _; rw [hsucc, accAt0_succ, if_neg h0]
          iexact HS
        isplitl [Hoth]; · iexact Hoth
        iexact Hg
      isplitl [Ho]; · iexact Ho
      isplitl [H0]; · iexact H0
      isplitl [H1]; · iexact H1
      isplitl [H2]; · iexact H2
      iexists _; iexact H3

/-- The region's obligation at every point. -/
theorem body_obligation0 (c : Dev nD) : BodyObligation (dat0 (F := F) V c) (defs₀ (F := F)) Variants.none () Set.univ := by
  intro t
  rw [bigSep_W0, bigSep_W0]
  exact sound_body0 V c t

/-- What the launch hands the region makes the invariant before the first point. -/
theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [Phi_eq0, scopedRest0_eq]; unfold Phi0 others0
  simp only [scM0, owns_whole]
  iintro ⟨Hg, ⟨%f, HS⟩, Hoth⟩
  isplitl [HS]
  · iexists f; isplitr
    · ipureintro; intro h; exact absurd (Fin.val_zero _) h
    iexact HS
  isplitl [Hoth]; · iexact Hoth
  iexact Hg

/-- After the last point the invariant gives the generator register and those scoped buffers back. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Phi_eq0, scopedRest0_eq]; unfold Phi0 others0
  simp only [scM0, owns_whole]
  iintro ⟨⟨%d, %hd, HS⟩, Hoth, Hg⟩
  isplitl [Hg]; · iexact Hg
  isplitl [HS]; · iexists d; iexact HS
  iexact Hoth

end

end Cert.Kernel.Run

end
-- ==== Proof.Bits.ProjBody.lean ====
/-
  The back-projection kernel's body at one grid point, as three Hoare triples over arbitrary whole buffers.
  The grid is (row tile ni, column tile ki), ki innermost. At a point the body
    * at ki = 0 first overwrites the accumulator with zeros,
    * adds (evecs block) · (spectrum block), contracted over the tile's 1024 columns, to the accumulator,
    * at ki = 7 copies the accumulator to the output block.
-/
import proofs.«117679_j80891414053479_1_alg».proof.Proof.Gen.Kernel.Launch
import proofs.«117679_j80891414053479_1_alg».proof.Proof.Gen.Kernel.Skeleton
import proofs.«117679_j80891414053479_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The inner grid coordinate is 0 (the test the body makes before it clears the accumulator). -/
abbrev first1 (i : grid1.Coords) : Prop :=
  (Scalar.cmpi .ne (Scalar.extui (Scalar.cmpi .eq (BitVec.ofNat 32 (i 1).val) 0#32)) 0#32) = 1#1
/-- The inner grid coordinate is 7 (the test the body makes before it writes the output block). -/
abbrev last1 (i : grid1.Coords) : Prop := k1_cond2 i = 1#1

/-! ## Reading a whole buffer back

Every load and store of the body goes through the rectangle of the WHOLE buffer (offsets zero, the buffer's own
sizes). Through it a load reads the contents as they stand, and a store replaces them: whatever was there
before, the buffer afterwards reads as the payload of the last store. -/

/-- The offsets `![0, 0]` are the zero offsets. -/
theorem proj_off_zero : (![0, 0] : Fin 2 → ℕ) = fun _ => 0 := funext fun a => by fin_cases a <;> rfl

/-- The rectangle of a whole 1024×256 buffer: offsets zero, the buffer's own sizes. -/
abbrev projR : Rect S1024x256 := Rect.unit (s := S1024x256) ![0, 0] S1024x256.size inb_S1024x256_S1024x256_0_0

/-- A 1024×256 buffer whose LAST store covered it reads back that store's payload, whatever the contents
    before and whatever the earlier stores. -/
theorem proj_read_stored {κ : Kind} {sp : Space} (v : View sig κ sp S1024x256 .f32) (f : v.ty.Contents (Elt F))
    (w : Vec F S1024x256 .f32) (L : List (View.Piece (Elt F) S1024x256 .f32)) :
    v.read (Elt F) (v.writes (Elt F) f (⟨projR, w⟩ :: L)) = w := by
  rw [View.read_writes_eq_canon _ _ _ (fun y => ⟨_, List.mem_cons_self, View.mem_set_unit_zero proj_off_zero inb_S1024x256_S1024x256_0_0 y⟩)]
  exact View.canon_cons_unit_zero proj_off_zero _ w L

/-- A load of a whole 1024×256 buffer that reads `X` is `X`. -/
theorem proj_load_whole (m : Memref sig .tc .vmem S1024x256 .f32) (h : m.IsWhole) (X : Vec F S1024x256 .f32) :
    View.readAt (Elt F) m.view projR.toLoadRect (h.unread X) = X := by
  rw [View.readAt_eq_ld, h.read_unread]; exact View.ld_unit_zero proj_off_zero _ X

/-- The same for the 1024×1024 input. -/
theorem proj_load_whole_sq (m : Memref sig .tc .vmem S1024x1024 .f32) (h : m.IsWhole) (X : Vec F S1024x1024 .f32) :
    View.readAt (Elt F) m.view (Rect.unit (s := S1024x1024) ![0, 0] S1024x1024.size inb_S1024x1024_S1024x1024_0_0).toLoadRect (h.unread X) = X := by
  rw [View.readAt_eq_ld, h.read_unread]; exact View.ld_unit_zero proj_off_zero _ X

/-- A load of a whole 1024×256 buffer after ONE covering store of this run reads that store's payload. -/
theorem proj_load_stored {κ : Kind} {sp : Space} (v : View sig κ sp S1024x256 .f32) (w : Vec F S1024x256 .f32) :
    v.readCov [(⟨projR, w⟩ : View.Piece (Elt F) S1024x256 .f32)] projR.toLoadRect = w :=
  View.readCov_unit_zero v proj_off_zero _ w

section
variable (c : Dev nD) (E : Set ℕ) (i : grid1.Coords)
  (arg2 : Memref sig .tc .vmem S1024x1024 .f32) (harg2 : arg2.IsWhole)
  (arg3 : Memref sig .tc .vmem S1024x256 .f32) (harg3 : arg3.IsWhole)
  (arg4 : Memref sig .tc .vmem S1024x256 .f32) (harg4 : arg4.IsWhole)
  (arg5 : Memref sig .tc .vmem S1024x256 .f32) (harg5 : arg5.IsWhole)
  (e : Vec F S1024x1024 .f32) (x : Vec F S1024x256 .f32) (o s : Vec F S1024x256 .f32)

set_option maxHeartbeats 1000000 in
/-- ki = 0: the accumulator restarts from zero; the output block is left as found. -/
theorem proj_first (h0 : first1 i) (h1 : ¬ last1 i) (K : PUnit → sProp 𝕄) :
    iprop(owns (c : Thread nD τ) arg2 fullShare e ∗ owns (c : Thread nD τ) arg3 fullShare x
        ∗ owns (c : Thread nD τ) arg4 fullShare o ∗ owns (c : Thread nD τ) arg5 fullShare s
        ∗ (iprop(owns (c : Thread nD τ) arg2 fullShare e ∗ owns (c : Thread nD τ) arg3 fullShare x
            ∗ owns (c : Thread nD τ) arg4 fullShare o ∗ owns (c : Thread nD τ) arg5 fullShare (k1_pay2 e x (k1_pay1 (F := F)))) -∗ K ⟨⟩))
      ⊢ wp frame (wpE (defs₀ (F := F)) Variants.none c none) E (cc1__proj_kernel i arg2 harg2 arg3 harg3 arg4 harg4 arg5 harg5) K := by
  -- the first test holds: the accumulator is overwritten with the zero block before it is read
  simp only [cc1__proj_kernel_eq_skeleton]; unfold cc1__proj_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr; swap; · iexact H5
  ipureintro
  sl_unfold_words
  -- the last store's payload; its third operand is the accumulator read back after the clearing store
  rw [proj_read_stored, proj_load_whole_sq, proj_load_whole, proj_load_stored]

set_option maxHeartbeats 1000000 in
/-- 0 < ki < 7: the accumulator gains this tile's product; the output block is left as found. -/
theorem proj_mid (h0 : ¬ first1 i) (h1 : ¬ last1 i) (K : PUnit → sProp 𝕄) :
    iprop(owns (c : Thread nD τ) arg2 fullShare e ∗ owns (c : Thread nD τ) arg3 fullShare x
        ∗ owns (c : Thread nD τ) arg4 fullShare o ∗ owns (c : Thread nD τ) arg5 fullShare s
        ∗ (iprop(owns (c : Thread nD τ) arg2 fullShare e ∗ owns (c : Thread nD τ) arg3 fullShare x
            ∗ owns (c : Thread nD τ) arg4 fullShare o ∗ owns (c : Thread nD τ) arg5 fullShare (k1_pay2 e x s)) -∗ K ⟨⟩))
      ⊢ wp frame (wpE (defs₀ (F := F)) Variants.none c none) E (cc1__proj_kernel i arg2 harg2 arg3 harg3 arg4 harg4 arg5 harg5) K := by
  -- both tests fail: the body is the three loads and the one store into the accumulator
  simp only [cc1__proj_kernel_eq_skeleton]; unfold cc1__proj_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr; swap; · iexact H5
  ipureintro
  -- the accumulator reads as the stored payload, whose three operands are the buffers as found
  rw [proj_read_stored, proj_load_whole_sq, proj_load_whole, proj_load_whole]

set_option maxHeartbeats 1000000 in
/-- ki = 7: the accumulator gains this tile's product and the output block receives a copy of it. -/
theorem proj_last (h0 : ¬ first1 i) (h1 : last1 i) (K : PUnit → sProp 𝕄) :
    iprop(owns (c : Thread nD τ) arg2 fullShare e ∗ owns (c : Thread nD τ) arg3 fullShare x
        ∗ owns (c : Thread nD τ) arg4 fullShare o ∗ owns (c : Thread nD τ) arg5 fullShare s
        ∗ (iprop(owns (c : Thread nD τ) arg2 fullShare e ∗ owns (c : Thread nD τ) arg3 fullShare x
            ∗ owns (c : Thread nD τ) arg4 fullShare (k1_pay2 e x s) ∗ owns (c : Thread nD τ) arg5 fullShare (k1_pay2 e x s)) -∗ K ⟨⟩))
      ⊢ wp frame (wpE (defs₀ (F := F)) Variants.none c none) E (cc1__proj_kernel i arg2 harg2 arg3 harg3 arg4 harg4 arg5 harg5) K := by
  -- the second test holds: after the store into the accumulator it is read back and copied to the output block
  simp only [cc1__proj_kernel_eq_skeleton]; unfold cc1__proj_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_words
    -- the output block reads as what was stored into it: the accumulator read back after its own store
    rw [proj_read_stored, proj_load_stored, proj_load_whole_sq, proj_load_whole, proj_load_whole]
  iexists _; isplitr; swap; · iexact H5
  ipureintro
  sl_unfold_words
  rw [proj_read_stored, proj_load_whole_sq, proj_load_whole, proj_load_whole]

end

end Cert.Kernel.Run

end
-- ==== Proof.Bits.ProjData.lean ====
/-
  The proof data of the back-projection region: what every staging buffer and the accumulator hold after each grid
  point, and the region's per-point obligation.
  Point t is (ni, ki) = (t / 8, t % 8). The two inputs keep their blocks. The accumulator after point t is
  `accAt1 (t + 1)`: the tile products of column tiles 0 … ki of row tile ni, added to zero. The output's staging
  buffer after point t is a copy of the accumulator; it is written back only at ki = 7.
-/
import proofs.«117679_j80891414053479_1_alg».proof.Proof.Bits.ProjBody
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n - 1` (anything fixed before the first point): over what the point before left,
    restarted from zero where the inner coordinate is 0. -/
def accAt1 (c : Dev nD) : ℕ → Vec F S1024x256 .f32
  | 0 => k1_pay1
  | n + 1 =>
    if h : n < cfg1.N then
      k1_pay2 (iblk1 V c 0 ⟨n, h⟩) (iblk1 V c 1 ⟨n, h⟩) (if n % 8 = 0 then k1_pay1 else accAt1 c n)
    else accAt1 c n

theorem accAt1_succ (c : Dev nD) (t : Fin cfg1.N) :
    accAt1 V c (t.val + 1) = k1_pay2 (iblk1 V c 0 t) (iblk1 V c 1 t) (if t.val % 8 = 0 then k1_pay1 else accAt1 V c t.val) := by
  rw [accAt1, dif_pos t.isLt]

/-- The accumulator buffer, and the core's other scoped buffers that are no staging buffer of this region. -/
abbrev scM1 : Memref sig .tc .vmem S1024x256 .f32 := Memref.whole cc1_scratch0
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant before point `t`: the accumulator at some contents, which after the first point are the
    accumulated ones; the other scoped buffers and the generator register, unread. -/
def Phi1 (c : Dev nD) (t : Fin (cfg1.N + 1)) : sProp 𝕄 :=
  iprop((∃ d, ⌜t.val ≠ 0 → d = accAt1 V c t.val⌝ ∗ owns (c : Thread nD τ) scM1 fullShare d) ∗ others1 (F := F) c ∗ ∃ r, prngReg c r)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c (t.val + 1)
  Φ t := Phi1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c (t.val + 1) := by dsimp only [dat1]
theorem Phi_eq1 (c : Dev nD) (t : Fin (cfg1.N + 1)) : (dat1 V c).Φ t = Phi1 V c t := by dsimp only [dat1]

/-! ## The branch tests and the output window's idle points, in closed form over the grid -/

/-- The body clears the accumulator exactly at the points whose inner coordinate is 0. -/
theorem first1_iff : ∀ t : Fin cfg1.N, first1 (grid1.coords t) ↔ t.val % 8 = 0 :=
  (by decide +kernel : ∀ t : Fin grid1.N, first1 (grid1.coords t) ↔ t.val % 8 = 0)
/-- It writes the output block exactly at the points whose inner coordinate is 7. -/
theorem last1_iff : ∀ t : Fin cfg1.N, last1 (grid1.coords t) ↔ t.val % 8 = 7 :=
  (by decide +kernel : ∀ t : Fin grid1.N, last1 (grid1.coords t) ↔ t.val % 8 = 7)
/-- The two inputs are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle away from the inner coordinate 7, and live there. -/
theorem idle1_2 : ∀ t : Fin cfg1.N, ¬ t.val % 8 = 7 → cfg1.idle 2 (grid1.coords t) = true := by decide +kernel
theorem live1_2 : ∀ t : Fin cfg1.N, t.val % 8 = 7 → cfg1.idle 2 (grid1.coords t) = false := by decide +kernel
/-- Away from the inner coordinate 7 the output block is not written back. -/
theorem noFlush1_2 (t : Fin cfg1.N) (h : ¬ t.val % 8 = 7) : (cfg1.win 2).flush t = false := by
  cases hf : (cfg1.win 2).flush t
  · rfl
  · exact absurd ((flush1_2 t).mp hf) h

/-! ## What the body finds in the inputs' staging buffers -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [Phi_eq1, Phi_eq1]; unfold Phi1
  have hs : (t.succ).val = t.val + 1 := Fin.val_succ t
  have hc : (t.castSucc).val = t.val := Fin.coe_castSucc t
  by_cases h7 : t.val % 8 = 7
  · have h0 : ¬ t.val % 8 = 0 := by omega
    rw [show (dat1 V c).leavesExact 2 t = owns (c : Thread nD τ) (st1_2 t) fullShare ((dat1 V c).after 2 t) from by
      unfold Dat.leavesExact; rw [live1_2 t h7], after1_2]
    iintro ⟨⟨⟨%d, %hd, HS⟩, Hoth, Hg⟩, Ho, ⟨%d0, H0⟩, ⟨%d1, H1⟩, ⟨%d2, H2⟩⟩
    have hacc : accAt1 V c (t.val + 1) = k1_pay2 (iblk1 V c 0 t) (iblk1 V c 1 t) d := by
      rw [accAt1_succ, if_neg h0, hd (by rw [hc]; omega), hc]
    rw [hs, hacc]
    iapply (proj_last c Set.univ (grid1.coords t) _ _ _ _ _ _ _ _ (iblk1 V c 0 t) (iblk1 V c 1 t) ((dat1 V c).before 2 t d2) d
      (fun h => h0 ((first1_iff t).mp h)) ((last1_iff t).mpr h7) _)
    isplitl [H0]; · iexact H0
    isplitl [H1]; · iexact H1
    isplitl [H2]; · iexact H2
    isplitl [HS]; · iexact HS
    iintro ⟨H0, H1, H2, HS⟩
    isplitl [HS Hoth Hg]
    · isplitl [HS]
      · iexists _; isplitr
        · ipureintro; exact fun _ => rfl
        iexact HS
      isplitl [Hoth]; · iexact Hoth
      iexact Hg
    isplitl [Ho]; · iexact Ho
    isplitl [H0]; · iexact H0
    isplitl [H1]; · iexact H1
    iexact H2
  · rw [Dat.leavesExact_idle (dat1 V c) 2 t (idle1_2 t h7) (noFlush1_2 t h7)]
    by_cases h0 : t.val % 8 = 0
    · iintro ⟨⟨⟨%d, %hd, HS⟩, Hoth, Hg⟩, Ho, ⟨%d0, H0⟩, ⟨%d1, H1⟩, ⟨%d2, H2⟩⟩
      have hacc : accAt1 V c (t.val + 1) = k1_pay2 (iblk1 V c 0 t) (iblk1 V c 1 t) (k1_pay1 (F := F)) := by
        rw [accAt1_succ, if_pos h0]
      rw [hs, hacc]
      iapply (proj_first c Set.univ (grid1.coords t) _ _ _ _ _ _ _ _ (iblk1 V c 0 t) (iblk1 V c 1 t) ((dat1 V c).before 2 t d2) d
        ((first1_iff t).mpr h0) (fun h => h7 ((last1_iff t).mp h)) _)
      isplitl [H0]; · iexact H0
      isplitl [H1]; · iexact H1
      isplitl [H2]; · iexact H2
      isplitl [HS]; · iexact HS
      iintro ⟨H0, H1, H2, HS⟩
      isplitl [HS Hoth Hg]
      · isplitl [HS]
        · iexists _; isplitr
          · ipureintro; exact fun _ => rfl
          iexact HS
        isplitl [Hoth]; · iexact Hoth
        iexact Hg
      isplitl [Ho]; · iexact Ho
      isplitl [H0]; · iexact H0
      isplitl [H1]; · iexact H1
      iexists _; iexact H2
    · iintro ⟨⟨⟨%d, %hd, HS⟩, Hoth, Hg⟩, Ho, ⟨%d0, H0⟩, ⟨%d1, H1⟩, ⟨%d2, H2⟩⟩
      have hacc : accAt1 V c (t.val + 1) = k1_pay2 (iblk1 V c 0 t) (iblk1 V c 1 t) d := by
        rw [accAt1_succ, if_neg h0, hd (by rw [hc]; omega), hc]
      rw [hs, hacc]
      iapply (proj_mid c Set.univ (grid1.coords t) _ _ _ _ _ _ _ _ (iblk1 V c 0 t) (iblk1 V c 1 t) ((dat1 V c).before 2 t d2) d
        (fun h => h0 ((first1_iff t).mp h)) (fun h => h7 ((last1_iff t).mp h)) _)
      isplitl [H0]; · iexact H0
      isplitl [H1]; · iexact H1
      isplitl [H2]; · iexact H2
      isplitl [HS]; · iexact HS
      iintro ⟨H0, H1, H2, HS⟩
      isplitl [HS Hoth Hg]
      · isplitl [HS]
        · iexists _; isplitr
          · ipureintro; exact fun _ => rfl
          iexact HS
        isplitl [Hoth]; · iexact Hoth
        iexact Hg
      isplitl [Ho]; · iexact Ho
      isplitl [H0]; · iexact H0
      isplitl [H1]; · iexact H1
      iexists _; iexact H2

/-- The region's obligation at every point. -/
theorem body_obligation1 (c : Dev nD) : BodyObligation (dat1 (F := F) V c) (defs₀ (F := F)) Variants.none () Set.univ := fun t => by
  rw [bigSep_W1, bigSep_W1]
  exact sound_body1 V c t

/-- What the launch hands the region makes the invariant before the first point. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [Phi_eq1, scopedRest1_eq]; unfold Phi1 others1
  iintro ⟨Hg, B0, B1, B2, B3, B4, B5, B6, B7, B8, ⟨%f, HS⟩⟩
  isplitl [HS]
  · iexists f; isplitr
    · ipureintro; exact fun h => absurd rfl h
    rw [owns_whole]; iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- After the last point the invariant gives the generator register and those scoped buffers back. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [Phi_eq1, scopedRest1_eq]; unfold Phi1 others1
  simp only [scM1, owns_whole]
  iintro ⟨⟨%d, %hd, HS⟩, ⟨B0, B1, B2, B3, B4, B5, B6, B7, B8⟩, Hg⟩
  isplitl [Hg]; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  iexists d; iexact HS

end

end Cert.Kernel.Run

end
-- ==== Proof.Bits.Run.lean ====
/-
  The whole program's run: three stretches of host operations, the spectral-projection region, the back-projection
  region. Between two items every unscoped buffer of the core is held at a named valuation: the launch memory, then
  each host stretch's operations applied, then each region's arrays at what its write-backs leave and every other
  buffer as the region found it. The arguments are written by no item, so they end as launched; the result buffer
  ends at the second region's final output array.
-/
import proofs.«117679_j80891414053479_1_alg».proof.Proof.Bits.SpecData
import proofs.«117679_j80891414053479_1_alg».proof.Proof.Bits.ProjData
import proofs.«117679_j80891414053479_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Region 0's entry contents (after the three host stretches), read at the TensorCore's references. -/
abbrev E3 : (c : Dev nD) → (b : Ref sig .tc) → Buf (Elt F) ((c : Thread nD τ).loc b) := fun c b => V3 m c b
/-- At region 0's exit. -/
def B4 (c : Dev nD) : Valuation τ sig (Elt F) :=
  Pipeline.withArrays spec0 c (V3 m c) fun w => (dat0 (E3 m) c).arrAt w cfg0.N
theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = V3 m c (Proc.devRef .tc b) := by
  unfold B4; exact Pipeline.withArrays_of_ne spec0 c _ _ b hb
abbrev E4 : (c : Dev nD) → (b : Ref sig .tc) → Buf (Elt F) ((c : Thread nD τ).loc b) := fun c b => B4 m c b
theorem hF0 (c : Dev nD) (w : Fin cfg0.W) : (dat0 (E3 m) c).arrAt w cfg0.N = E4 m c (Pipeline.arrRef spec0 w) :=
  (B4_arr m c w).symm
theorem hrest0 (c : Dev nD) : ∀ b, b ∉ Finset.univ.image (Pipeline.arrRef spec0) → E4 m c b = E3 m c b :=
  fun b hb => B4_of_ne m c b fun w e => hb (Finset.mem_image.mpr ⟨w, Finset.mem_univ _, e⟩)

/-- At region 1's exit. -/
def B5 (c : Dev nD) : Valuation τ sig (Elt F) :=
  Pipeline.withArrays spec1 c (B4 m c) fun w => (dat1 (E4 m) c).arrAt w cfg1.N
theorem B5_arr (c : Dev nD) (w : Fin cfg1.W) :
    B5 m c (Proc.devRef .tc (Pipeline.arrRef spec1 w)) = (dat1 (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev E5 : (c : Dev nD) → (b : Ref sig .tc) → Buf (Elt F) ((c : Thread nD τ).loc b) := fun c b => B5 m c b
theorem hF1 (c : Dev nD) (w : Fin cfg1.W) : (dat1 (E4 m) c).arrAt w cfg1.N = E5 m c (Pipeline.arrRef spec1 w) :=
  (B5_arr m c w).symm
theorem hrest1 (c : Dev nD) : ∀ b, b ∉ Finset.univ.image (Pipeline.arrRef spec1) → E5 m c b = E4 m c b :=
  fun b hb => B5_of_ne m c b fun w e => hb (Finset.mem_image.mpr ⟨w, Finset.mem_univ _, e⟩)

/-! ## No item writes an argument -/

theorem B5_main_arg0 (c : Dev nD) : B5 m c (Proc.devRef .tc main_arg0) = m ((c : Thread nD τ).loc main_arg0) :=
  calc B5 m c (Proc.devRef .tc main_arg0)
    _ = B4 m c (Proc.devRef .tc main_arg0) := B5_of_ne m c main_arg0 (by decide)
    _ = V3 m c (Proc.devRef .tc main_arg0) := (B4_arr m c 1).trans (((dat0 (E3 m) c).arrAt_in 1 rfl _).trans (A_eq0 (E3 m) c 1))
    _ = m ((c : Thread nD τ).loc main_arg0) :=
      (V3_of m c main_arg0 (by decide)).trans <| (V2_of m c main_arg0 (by decide)).trans <| (V1_of m c main_arg0 (by decide)).trans rfl
theorem B5_main_arg1 (c : Dev nD) : B5 m c (Proc.devRef .tc main_arg1) = m ((c : Thread nD τ).loc main_arg1) :=
  calc B5 m c (Proc.devRef .tc main_arg1)
    _ = B4 m c (Proc.devRef .tc main_arg1) := B5_of_ne m c main_arg1 (by decide)
    _ = V3 m c (Proc.devRef .tc main_arg1) := B4_of_ne m c main_arg1 (by decide)
    _ = m ((c : Thread nD τ).loc main_arg1) :=
      (V3_of m c main_arg1 (by decide)).trans <| (V2_of m c main_arg1 (by decide)).trans <| (V1_of m c main_arg1 (by decide)).trans rfl
theorem B5_main_arg2 (c : Dev nD) : B5 m c (Proc.devRef .tc main_arg2) = m ((c : Thread nD τ).loc main_arg2) :=
  calc B5 m c (Proc.devRef .tc main_arg2)
    _ = B4 m c (Proc.devRef .tc main_arg2) := (B5_arr m c 0).trans (((dat1 (E4 m) c).arrAt_in 0 rfl _).trans (A_eq1 (E4 m) c 0))
    _ = V3 m c (Proc.devRef .tc main_arg2) := (B4_arr m c 0).trans (((dat0 (E3 m) c).arrAt_in 0 rfl _).trans (A_eq0 (E3 m) c 0))
    _ = m ((c : Thread nD τ).loc main_arg2) :=
      (V3_of m c main_arg2 (by decide)).trans <| (V2_of m c main_arg2 (by decide)).trans <| (V1_of m c main_arg2 (by decide)).trans rfl
theorem B5_main_arg3 (c : Dev nD) : B5 m c (Proc.devRef .tc main_arg3) = m ((c : Thread nD τ).loc main_arg3) :=
  calc B5 m c (Proc.devRef .tc main_arg3)
    _ = B4 m c (Proc.devRef .tc main_arg3) := B5_of_ne m c main_arg3 (by decide)
    _ = V3 m c (Proc.devRef .tc main_arg3) := B4_of_ne m c main_arg3 (by decide)
    _ = m ((c : Thread nD τ).loc main_arg3) :=
      (V3_of m c main_arg3 (by decide)).trans <| (V2_of m c main_arg3 (by decide)).trans <| (V1_of m c main_arg3 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E4 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The last thread state, without the `owes`. -/
abbrev Tn (c : Dev nD) : sProp 𝕄 := iprop(StableHlo.held (c : Thread nD τ) (Pipeline.ucRefs τ sig) (B5 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the boundary's contents, left with its arrays
    at what the write-backs leave; the generator register passes through the region's invariant; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E3 m) c).Φ 0 from rfl]
    iintro ⟨Hp, -, Hr⟩
    iapply (hin0 (E3 m) c)
    isplitl [Hp]; · iexact Hp
    iexact Hr
  hout c := by
    rw [Pipeline.ownSems0_none, show (pdats m 0 c).Φ (Fin.last _) = (dat0 (E3 m) c).Φ (Fin.last cfg0.N) from rfl]
    iintro H
    ihave H' := (hout0 (E3 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left with its arrays
    at what the write-backs leave; the generator register passes through the region's invariant; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (B4 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E4 m) c).Φ 0 from rfl]
    iintro ⟨Hp, -, Hr⟩
    iapply (hin1 (E4 m) c)
    isplitl [Hp]; · iexact Hp
    iexact Hr
  hout c := by
    rw [Pipeline.ownSems0_none, show (pdats m 1 c).Φ (Fin.last _) = (dat1 (E4 m) c).Φ (Fin.last cfg1.N) from rfl]
    iintro H
    ihave H' := (hout1 (E4 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (seg0 m 𝒱₀ L lv fun _ => R), .host (seg1 m 𝒱₀ L lv fun _ => R), .host (seg2 m 𝒱₀ L lv fun _ => R),
    .region (reg0 m), .region (reg1 m) ]

set_option backward.isDefEq.respectTransparency.types false in
/-- Every weakly fair execution of @main from memory `m` with zero counters terminates, nothing faulting; the result
    buffer ends at the second region's final output array and every argument as launched. -/
theorem run_main : θ_run defs (onTc (τ := τ) (main (F := F))) ⟨m, fun _ => 0, ρ⟩ (fun r => ∀ c : Dev nD,
      r.2.mem ((c.tc : Thread nD τ).loc main_v8) = (dat1 (E4 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tn m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c =>
      ⟨(h c _ (mem_uc main_v8 (by decide))).trans (B5_arr m c 2),
       (h c _ (mem_uc main_arg0 (by decide))).trans (B5_main_arg0 m c),
       (h c _ (mem_uc main_arg1 (by decide))).trans (B5_main_arg1 m c),
       (h c _ (mem_uc main_arg2 (by decide))).trans (B5_main_arg2 m c),
       (h c _ (mem_uc main_arg3 (by decide))).trans (B5_main_arg3 m c)⟩)

end Cert.Kernel.Run

end
-- ==== Proof.Ideal.SpecBody.lean ====
/-
  The spectral-projection kernel's body at one grid point, as three Hoare triples over arbitrary whole buffers.
  The grid is (column tile ki, row tile ni), ni innermost. At a point the body
    * at ni = 0 first overwrites the accumulator with zeros,
    * adds (evecs block)ᵀ · (x block), contracted over the 1024 rows of the tile, to the accumulator,
    * at ni = 7 writes accumulator × (coefficient column, broadcast along the 256 channels) to the output block.
  So with accumulator contents `s` on entry the accumulator ends at `pay2 e x s` (at ni = 0: `pay2 e x 0`), and the
  output block is touched only at ni = 7, where it ends at `pay3 (pay2 e x s) k`.
-/
import proofs.«117679_j80891414053479_1_alg».proof.Proof.Gen.KernelIdeal.Launch
import proofs.«117679_j80891414053479_1_alg».proof.Proof.Gen.KernelIdeal.Skeleton
import proofs.«117679_j80891414053479_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The inner grid coordinate is 0 (the test the body makes before it clears the accumulator). -/
abbrev first0 (i : grid0.Coords) : Prop :=
  (Scalar.cmpi .ne (Scalar.extui (Scalar.cmpi .eq (BitVec.ofNat 32 (i 1).val) 0#32)) 0#32) = 1#1
/-- The inner grid coordinate is 7 (the test the body makes before it writes the output block). -/
abbrev last0 (i : grid0.Coords) : Prop := k0_cond2 i = 1#1

section
variable (c : Dev nD) (E : Set ℕ) (i : grid0.Coords)
  (arg2 : Memref sig .tc .vmem S1024x1024 .f32) (harg2 : arg2.IsWhole)
  (arg3 : Memref sig .tc .vmem S1024x256 .f32) (harg3 : arg3.IsWhole)
  (arg4 : Memref sig .tc .vmem S1024x1 .f32) (harg4 : arg4.IsWhole)
  (arg5 : Memref sig .tc .vmem S1024x256 .f32) (harg5 : arg5.IsWhole)
  (arg6 : Memref sig .tc .vmem S1024x256 .f32) (harg6 : arg6.IsWhole)
  (e : Vec F S1024x1024 .f32) (x : Vec F S1024x256 .f32) (k : Vec F S1024x1 .f32) (o s : Vec F S1024x256 .f32)

/-- The offsets `[0, 0]` are the zero offsets. -/
private theorem hz : (![0, 0] : Fin 2 → Nat) = fun _ => 0 := funext fun a => by fin_cases a <;> rfl

/-- A load of a whole buffer through the whole-shape rectangle at zero offsets reads the buffer's contents. -/
private theorem load_whole {S : Shape} {t : EltTy} (m : Memref sig .tc .vmem S t) (h : m.IsWhole)
    {off : Fin S.rank → Nat} (hoff : off = fun _ => 0) (inb : ∀ a, off a + S.size a ≤ S.size a) (X : S.Idx → Elt F t) :
    View.readAt (Elt F) m.view (Rect.unit off S.size inb).toLoadRect (h.unread X) = X := by
  rw [View.readAt_eq_ld, h.read_unread, View.ld_unit_zero hoff]

/-- A store through the whole-shape rectangle at zero offsets, made last, leaves its payload as the contents read,
    whatever was stored before it. -/
private theorem store_whole {S : Shape} {t : EltTy} (m : Memref sig .tc .vmem S t)
    {off : Fin S.rank → Nat} (hoff : off = fun _ => 0) (inb : ∀ a, off a + S.size a ≤ S.size a)
    (f : m.view.ty.Contents (Elt F)) (w : S.Idx → Elt F t) (L : List (View.Piece (Elt F) S t)) :
    m.view.read (Elt F) (m.view.writes (Elt F) f (⟨Rect.unit off S.size inb, w⟩ :: L)) = w := by
  rw [View.read_writes_eq_canon _ _ _ (fun y => ⟨_, List.mem_cons_self, View.mem_set_unit_zero hoff inb y⟩),
    View.canon_cons_unit_zero hoff]

/-- ni = 0: the accumulator restarts from zero; the output block is left as found. -/
theorem spec_first (h0 : first0 i) (h1 : ¬ last0 i) (K : PUnit → sProp 𝕄) :
    iprop(owns (c : Thread nD τ) arg2 fullShare e ∗ owns (c : Thread nD τ) arg3 fullShare x ∗ owns (c : Thread nD τ) arg4 fullShare k
        ∗ owns (c : Thread nD τ) arg5 fullShare o ∗ owns (c : Thread nD τ) arg6 fullShare s
        ∗ (iprop(owns (c : Thread nD τ) arg2 fullShare e ∗ owns (c : Thread nD τ) arg3 fullShare x ∗ owns (c : Thread nD τ) arg4 fullShare k
            ∗ owns (c : Thread nD τ) arg5 fullShare o ∗ owns (c : Thread nD τ) arg6 fullShare (k0_pay2 e x (k0_pay1 (F := F)))) -∗ K ⟨⟩))
      ⊢ wp frame (wpE (defs₀ (F := F)) Variants.none c none) E (cc0__spec_kernel i arg2 harg2 arg3 harg3 arg4 harg4 arg5 harg5 arg6 harg6) K := by
  simp only [cc0__spec_kernel_eq_skeleton]; unfold cc0__spec_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  -- each buffer is whole, so its raw contents are determined by what it reads
  obtain rfl := harg2.eq_unread hf2; obtain rfl := harg3.eq_unread hf3; obtain rfl := harg4.eq_unread hf4
  obtain rfl := harg5.eq_unread hf5; obtain rfl := harg6.eq_unread hf6
  sl_exec (disch := first | exact h0 | exact h1)
  sl_step
  iapply Hk
  -- the three inputs are only read
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the output block is not stored
  isplitl [H5]
  · iexists _; isplitr; · ipureintro; exact harg5.read_unread _
    iexact H5
  iexists _; isplitr; swap; · iexact H6
  ipureintro
  -- the accumulator: the last store covers it, and the load between the two stores reads the zeros back
  sl_unfold_words
  rw [store_whole _ hz, load_whole _ _ hz, load_whole _ _ hz, View.readCov_unit_zero _ hz]

/-- 0 < ni < 7: the accumulator gains this tile's product; the output block is left as found. -/
theorem spec_mid (h0 : ¬ first0 i) (h1 : ¬ last0 i) (K : PUnit → sProp 𝕄) :
    iprop(owns (c : Thread nD τ) arg2 fullShare e ∗ owns (c : Thread nD τ) arg3 fullShare x ∗ owns (c : Thread nD τ) arg4 fullShare k
        ∗ owns (c : Thread nD τ) arg5 fullShare o ∗ owns (c : Thread nD τ) arg6 fullShare s
        ∗ (iprop(owns (c : Thread nD τ) arg2 fullShare e ∗ owns (c : Thread nD τ) arg3 fullShare x ∗ owns (c : Thread nD τ) arg4 fullShare k
            ∗ owns (c : Thread nD τ) arg5 fullShare o ∗ owns (c : Thread nD τ) arg6 fullShare (k0_pay2 e x s)) -∗ K ⟨⟩))
      ⊢ wp frame (wpE (defs₀ (F := F)) Variants.none c none) E (cc0__spec_kernel i arg2 harg2 arg3 harg3 arg4 harg4 arg5 harg5 arg6 harg6) K := by
  simp only [cc0__spec_kernel_eq_skeleton]; unfold cc0__spec_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  -- each buffer is whole, so its raw contents are determined by what it reads
  obtain rfl := harg2.eq_unread hf2; obtain rfl := harg3.eq_unread hf3; obtain rfl := harg4.eq_unread hf4
  obtain rfl := harg5.eq_unread hf5; obtain rfl := harg6.eq_unread hf6
  sl_exec (disch := first | exact h0 | exact h1)
  sl_step
  iapply Hk
  -- the three inputs are only read
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the output block is not stored
  isplitl [H5]
  · iexists _; isplitr; · ipureintro; exact harg5.read_unread _
    iexact H5
  iexists _; isplitr; swap; · iexact H6
  ipureintro
  -- the accumulator: its one store covers it, and the payload's loads read e, x and the entry contents s
  rw [store_whole _ hz, load_whole _ _ hz, load_whole _ _ hz, load_whole _ _ hz]

/-- ni = 7: the accumulator gains this tile's product and the output block receives it scaled by the coefficient column. -/
theorem spec_last (h0 : ¬ first0 i) (h1 : last0 i) (K : PUnit → sProp 𝕄) :
    iprop(owns (c : Thread nD τ) arg2 fullShare e ∗ owns (c : Thread nD τ) arg3 fullShare x ∗ owns (c : Thread nD τ) arg4 fullShare k
        ∗ owns (c : Thread nD τ) arg5 fullShare o ∗ owns (c : Thread nD τ) arg6 fullShare s
        ∗ (iprop(owns (c : Thread nD τ) arg2 fullShare e ∗ owns (c : Thread nD τ) arg3 fullShare x ∗ owns (c : Thread nD τ) arg4 fullShare k
            ∗ owns (c : Thread nD τ) arg5 fullShare (k0_pay3 (k0_pay2 e x s) k) ∗ owns (c : Thread nD τ) arg6 fullShare (k0_pay2 e x s)) -∗ K ⟨⟩))
      ⊢ wp frame (wpE (defs₀ (F := F)) Variants.none c none) E (cc0__spec_kernel i arg2 harg2 arg3 harg3 arg4 harg4 arg5 harg5 arg6 harg6) K := by
  simp only [cc0__spec_kernel_eq_skeleton]; unfold cc0__spec_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  -- each buffer is whole, so its raw contents are determined by what it reads
  obtain rfl := harg2.eq_unread hf2; obtain rfl := harg3.eq_unread hf3; obtain rfl := harg4.eq_unread hf4
  obtain rfl := harg5.eq_unread hf5; obtain rfl := harg6.eq_unread hf6
  sl_exec (disch := first | exact h0 | exact h1)
  sl_step
  iapply Hk
  -- the three inputs are only read
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  -- the output block: its one store covers it; the accumulator loaded after its store reads that store's payload
  isplitl [H5]
  · iexists _; isplitr; swap; · iexact H5
    ipureintro
    sl_unfold_words
    rw [store_whole _ hz, load_whole _ _ hz, View.readCov_unit_zero _ hz, load_whole _ _ hz, load_whole _ _ hz,
      load_whole _ _ hz]
  iexists _; isplitr; swap; · iexact H6
  ipureintro
  -- the accumulator, as at an inner point
  sl_unfold_words
  rw [store_whole _ hz, load_whole _ _ hz, load_whole _ _ hz, load_whole _ _ hz]

end

end Cert.KernelIdeal.Run

end
-- ==== Proof.Ideal.SpecData.lean ====
/-
  The proof data of the spectral-projection region: what every staging buffer and the accumulator hold after each
  grid point, and the region's per-point obligation.
  Point t is (ki, ni) = (t / 8, t % 8). The three inputs keep their blocks. The accumulator after point t is
  `accAt0 (t + 1)`: the tile products of row tiles 0 … ni of column tile ki, added to zero. The output's staging
  buffer after point t is the accumulator scaled by the coefficient block; it is written back only at ni = 7.
-/
import proofs.«117679_j80891414053479_1_alg».proof.Proof.Ideal.SpecBody
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n - 1` (anything fixed before the first point): over what the point before left,
    restarted from zero where the inner coordinate is 0. -/
def accAt0 (c : Dev nD) : ℕ → Vec F S1024x256 .f32
  | 0 => k0_pay1
  | n + 1 =>
    if h : n < cfg0.N then
      k0_pay2 (iblk0 V c 0 ⟨n, h⟩) (iblk0 V c 1 ⟨n, h⟩) (if n % 8 = 0 then k0_pay1 else accAt0 c n)
    else accAt0 c n

theorem accAt0_succ (c : Dev nD) (t : Fin cfg0.N) :
    accAt0 V c (t.val + 1) = k0_pay2 (iblk0 V c 0 t) (iblk0 V c 1 t) (if t.val % 8 = 0 then k0_pay1 else accAt0 V c t.val) := by
  rw [accAt0, dif_pos t.isLt]

/-- The accumulator buffer, and the core's other scoped buffers that are no staging buffer of this region. -/
abbrev scM0 : Memref sig .tc .vmem S1024x256 .f32 := Memref.whole cc0_scratch0
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's invariant before point `t`: the accumulator at some contents, which after the first point are the
    accumulated ones; the other scoped buffers and the generator register, unread. -/
def Phi0 (c : Dev nD) (t : Fin (cfg0.N + 1)) : sProp 𝕄 :=
  iprop((∃ d, ⌜t.val ≠ 0 → d = accAt0 V c t.val⌝ ∗ owns (c : Thread nD τ) scM0 fullShare d) ∗ others0 (F := F) c ∗ ∃ r, prngReg c r)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c (t.val + 1)) (iblk0 V c 2 t)
  Φ t := Phi0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt0 V c (t.val + 1)) (iblk0 V c 2 t) := by dsimp only [dat0]
theorem Phi_eq0 (c : Dev nD) (t : Fin (cfg0.N + 1)) : (dat0 V c).Φ t = Phi0 V c t := by dsimp only [dat0]

/-! ## The grid in closed form

Point `t` has inner coordinate `t % 8`: the body's two tests, and where the output window is idle. -/

/-- The body's first test holds exactly where the inner coordinate is 0. -/
theorem hfirst0 : ∀ t : Fin cfg0.N, first0 (grid0.coords t) ↔ t.val % 8 = 0 :=
  (by decide +kernel : ∀ t : Fin grid0.N, first0 (grid0.coords t) ↔ t.val % 8 = 0)
/-- Its second test holds exactly where the inner coordinate is 7. -/
theorem hlast0 : ∀ t : Fin cfg0.N, last0 (grid0.coords t) ↔ t.val % 8 = 7 :=
  (by decide +kernel : ∀ t : Fin grid0.N, last0 (grid0.coords t) ↔ t.val % 8 = 7)
/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle, and not written back, away from inner coordinate 7, and live there. -/
theorem idle0_3 : ∀ t : Fin cfg0.N, ¬ t.val % 8 = 7 → cfg0.idle 3 (grid0.coords t) = true := by decide +kernel
theorem live0_3 : ∀ t : Fin cfg0.N, t.val % 8 = 7 → cfg0.idle 3 (grid0.coords t) = false := by decide +kernel
theorem noFlush0_3 : ∀ t : Fin cfg0.N, ¬ t.val % 8 = 7 → (cfg0.win 3).flush t = false := by decide +kernel

/-! ## What the body finds in the input windows -/

/-- Each input's current staging buffer holds its block at every point, fetched there or not: where it is not
    fetched its block index has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- What the body must leave in each window's current buffer: an input's block, as found; the output's buffer as found
    where it is idle, and the scaled accumulator where it is written back. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3_idle (c : Dev nD) (t : Fin cfg0.N) (h : ¬ t.val % 8 = 7) :
    (dat0 V c).leavesExact 3 t = iprop(∃ d, owns (c : Thread nD τ) (st0_3 t) fullShare ((dat0 V c).before 3 t d)) :=
  Dat.leavesExact_idle (dat0 V c) 3 t (idle0_3 t h) (noFlush0_3 t h)
theorem leaves0_3_live (c : Dev nD) (t : Fin cfg0.N) (h : t.val % 8 = 7) :
    (dat0 V c).leavesExact 3 t = owns (c : Thread nD τ) (st0_3 t) fullShare (k0_pay3 (accAt0 V c (t.val + 1)) (iblk0 V c 2 t)) := by
  unfold Dat.leavesExact; rw [live0_3 t h, after0_3]

set_option maxHeartbeats 4800000 in
/-- The body at any point. The inputs' buffers hold their blocks; the invariant hands over the accumulator, which after
    the first point holds `accAt0 t`; the inner coordinate selects the triple; the accumulator comes back at
    `accAt0 (t + 1)` by the recursion's step, and at inner coordinate 7 the output buffer at that, scaled. The core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [leaves0_0, leaves0_1, leaves0_2]
  rw [Phi_eq0, Phi_eq0]; unfold Phi0
  have hN : t.val < 64 := lt_of_lt_of_eq t.isLt (show cfg0.N = 64 from N_0)
  have hsucc : (t.succ).val = t.val + 1 := Fin.val_succ t
  have hcast : (t.castSucc).val = t.val := Fin.coe_castSucc t
  by_cases h0 : t.val % 8 = 0
  · -- the inner coordinate is 0: the accumulator restarts; the output block is idle
    have h1 : ¬ t.val % 8 = 7 := by omega
    rw [leaves0_3_idle V c t h1]
    iintro ⟨⟨⟨%d, %hd, HS⟩, Hoth, Hg⟩, Ho, ⟨%d0, H0⟩, ⟨%d1, H1⟩, ⟨%d2, H2⟩, ⟨%d3, H3⟩⟩
    iapply (spec_first c Set.univ (grid0.coords t) _ _ _ _ _ _ _ _ _ _ (iblk0 V c 0 t) (iblk0 V c 1 t) (iblk0 V c 2 t)
      ((dat0 V c).before 3 t d3) d ((hfirst0 t).mpr h0) (fun h => h1 ((hlast0 t).mp h)) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS]
      · iexists (k0_pay2 (iblk0 V c 0 t) (iblk0 V c 1 t) (k0_pay1 (F := F)))
        isplitr
        · ipureintro; intro _; rw [hsucc, accAt0_succ, if_pos h0]
        iexact HS
      isplitl [Hoth]; · iexact Hoth
      iexact Hg
    isplitl [Ho]; · iexact Ho
    isplitl [H0]; · iexact H0
    isplitl [H1]; · iexact H1
    isplitl [H2]; · iexact H2
    iexists _; iexact H3
  · have hz : t.val ≠ 0 := fun hz => h0 (by rw [hz])
    by_cases h1 : t.val % 8 = 7
    · -- the inner coordinate is 7: the accumulator gains the tile's product and the output block is written
      rw [leaves0_3_live V c t h1, accAt0_succ, if_neg h0]
      iintro ⟨⟨⟨%d, %hd, HS⟩, Hoth, Hg⟩, Ho, ⟨%d0, H0⟩, ⟨%d1, H1⟩, ⟨%d2, H2⟩, ⟨%d3, H3⟩⟩
      have hd' : d = accAt0 V c t.val := by
        have := hd (by rw [hcast]; exact hz)
        rwa [hcast] at this
      subst hd'
      iapply (spec_last c Set.univ (grid0.coords t) _ _ _ _ _ _ _ _ _ _ (iblk0 V c 0 t) (iblk0 V c 1 t) (iblk0 V c 2 t)
        ((dat0 V c).before 3 t d3) (accAt0 V c t.val) (fun h => h0 ((hfirst0 t).mp h)) ((hlast0 t).mpr h1) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]
        · iexists (k0_pay2 (iblk0 V c 0 t) (iblk0 V c 1 t) (accAt0 V c t.val))
          isplitr
          · ipureintro; intro _; rw [hsucc, accAt0_succ, if_neg h0]
          iexact HS
        isplitl [Hoth]; · iexact Hoth
        iexact Hg
      isplitl [Ho]; · iexact Ho
      isplitl [H0]; · iexact H0
      isplitl [H1]; · iexact H1
      isplitl [H2]; · iexact H2
      iexact H3
    · -- between: the accumulator gains the tile's product; the output block is idle
      rw [leaves0_3_idle V c t h1]
      iintro ⟨⟨⟨%d, %hd, HS⟩, Hoth, Hg⟩, Ho, ⟨%d0, H0⟩, ⟨%d1, H1⟩, ⟨%d2, H2⟩, ⟨%d3, H3⟩⟩
      have hd' : d = accAt0 V c t.val := by
        have := hd (by rw [hcast]; exact hz)
        rwa [hcast] at this
      subst hd'
      iapply (spec_mid c Set.univ (grid0.coords t) _ _ _ _ _ _ _ _ _ _ (iblk0 V c 0 t) (iblk0 V c 1 t) (iblk0 V c 2 t)
        ((dat0 V c).before 3 t d3) (accAt0 V c t.val) (fun h => h0 ((hfirst0 t).mp h)) (fun h => h1 ((hlast0 t).mp h)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]
        · iexists (k0_pay2 (iblk0 V c 0 t) (iblk0 V c 1 t) (accAt0 V c t.val))
          isplitr
          · ipureintro; intro _; rw [hsucc, accAt0_succ, if_neg h0]
          iexact HS
        isplitl [Hoth]; · iexact Hoth
        iexact Hg
      isplitl [Ho]; · iexact Ho
      isplitl [H0]; · iexact H0
      isplitl [H1]; · iexact H1
      isplitl [H2]; · iexact H2
      iexists _; iexact H3

/-- The region's obligation at every point. -/
theorem body_obligation0 (c : Dev nD) : BodyObligation (dat0 (F := F) V c) (defs₀ (F := F)) Variants.none () Set.univ := by
  intro t
  rw [bigSep_W0, bigSep_W0]
  exact sound_body0 V c t

/-- What the launch hands the region makes the invariant before the first point. -/
theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [Phi_eq0, scopedRest0_eq]; unfold Phi0 others0
  simp only [scM0, owns_whole]
  iintro ⟨Hg, ⟨%f, HS⟩, Hoth⟩
  isplitl [HS]
  · iexists f; isplitr
    · ipureintro; intro h; exact absurd (Fin.val_zero _) h
    iexact HS
  isplitl [Hoth]; · iexact Hoth
  iexact Hg

/-- After the last point the invariant gives the generator register and those scoped buffers back. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Phi_eq0, scopedRest0_eq]; unfold Phi0 others0
  simp only [scM0, owns_whole]
  iintro ⟨⟨%d, %hd, HS⟩, Hoth, Hg⟩
  isplitl [Hg]; · iexact Hg
  isplitl [HS]; · iexists d; iexact HS
  iexact Hoth

end

end Cert.KernelIdeal.Run

end
-- ==== Proof.Ideal.ProjBody.lean ====
/-
  The back-projection kernel's body at one grid point, as three Hoare triples over arbitrary whole buffers.
  The grid is (row tile ni, column tile ki), ki innermost. At a point the body
    * at ki = 0 first overwrites the accumulator with zeros,
    * adds (evecs block) · (spectrum block), contracted over the tile's 1024 columns, to the accumulator,
    * at ki = 7 copies the accumulator to the output block.
-/
import proofs.«117679_j80891414053479_1_alg».proof.Proof.Gen.KernelIdeal.Launch
import proofs.«117679_j80891414053479_1_alg».proof.Proof.Gen.KernelIdeal.Skeleton
import proofs.«117679_j80891414053479_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The inner grid coordinate is 0 (the test the body makes before it clears the accumulator). -/
abbrev first1 (i : grid1.Coords) : Prop :=
  (Scalar.cmpi .ne (Scalar.extui (Scalar.cmpi .eq (BitVec.ofNat 32 (i 1).val) 0#32)) 0#32) = 1#1
/-- The inner grid coordinate is 7 (the test the body makes before it writes the output block). -/
abbrev last1 (i : grid1.Coords) : Prop := k1_cond2 i = 1#1

/-! ## Reading a whole buffer back

Every load and store of the body goes through the rectangle of the WHOLE buffer (offsets zero, the buffer's own
sizes). Through it a load reads the contents as they stand, and a store replaces them: whatever was there
before, the buffer afterwards reads as the payload of the last store. -/

/-- The offsets `![0, 0]` are the zero offsets. -/
theorem proj_off_zero : (![0, 0] : Fin 2 → ℕ) = fun _ => 0 := funext fun a => by fin_cases a <;> rfl

/-- The rectangle of a whole 1024×256 buffer: offsets zero, the buffer's own sizes. -/
abbrev projR : Rect S1024x256 := Rect.unit (s := S1024x256) ![0, 0] S1024x256.size inb_S1024x256_S1024x256_0_0

/-- A 1024×256 buffer whose LAST store covered it reads back that store's payload, whatever the contents
    before and whatever the earlier stores. -/
theorem proj_read_stored {κ : Kind} {sp : Space} (v : View sig κ sp S1024x256 .f32) (f : v.ty.Contents (Elt F))
    (w : Vec F S1024x256 .f32) (L : List (View.Piece (Elt F) S1024x256 .f32)) :
    v.read (Elt F) (v.writes (Elt F) f (⟨projR, w⟩ :: L)) = w := by
  rw [View.read_writes_eq_canon _ _ _ (fun y => ⟨_, List.mem_cons_self, View.mem_set_unit_zero proj_off_zero inb_S1024x256_S1024x256_0_0 y⟩)]
  exact View.canon_cons_unit_zero proj_off_zero _ w L

/-- A load of a whole 1024×256 buffer that reads `X` is `X`. -/
theorem proj_load_whole (m : Memref sig .tc .vmem S1024x256 .f32) (h : m.IsWhole) (X : Vec F S1024x256 .f32) :
    View.readAt (Elt F) m.view projR.toLoadRect (h.unread X) = X := by
  rw [View.readAt_eq_ld, h.read_unread]; exact View.ld_unit_zero proj_off_zero _ X

/-- The same for the 1024×1024 input. -/
theorem proj_load_whole_sq (m : Memref sig .tc .vmem S1024x1024 .f32) (h : m.IsWhole) (X : Vec F S1024x1024 .f32) :
    View.readAt (Elt F) m.view (Rect.unit (s := S1024x1024) ![0, 0] S1024x1024.size inb_S1024x1024_S1024x1024_0_0).toLoadRect (h.unread X) = X := by
  rw [View.readAt_eq_ld, h.read_unread]; exact View.ld_unit_zero proj_off_zero _ X

/-- A load of a whole 1024×256 buffer after ONE covering store of this run reads that store's payload. -/
theorem proj_load_stored {κ : Kind} {sp : Space} (v : View sig κ sp S1024x256 .f32) (w : Vec F S1024x256 .f32) :
    v.readCov [(⟨projR, w⟩ : View.Piece (Elt F) S1024x256 .f32)] projR.toLoadRect = w :=
  View.readCov_unit_zero v proj_off_zero _ w

section
variable (c : Dev nD) (E : Set ℕ) (i : grid1.Coords)
  (arg2 : Memref sig .tc .vmem S1024x1024 .f32) (harg2 : arg2.IsWhole)
  (arg3 : Memref sig .tc .vmem S1024x256 .f32) (harg3 : arg3.IsWhole)
  (arg4 : Memref sig .tc .vmem S1024x256 .f32) (harg4 : arg4.IsWhole)
  (arg5 : Memref sig .tc .vmem S1024x256 .f32) (harg5 : arg5.IsWhole)
  (e : Vec F S1024x1024 .f32) (x : Vec F S1024x256 .f32) (o s : Vec F S1024x256 .f32)

set_option maxHeartbeats 1000000 in
/-- ki = 0: the accumulator restarts from zero; the output block is left as found. -/
theorem proj_first (h0 : first1 i) (h1 : ¬ last1 i) (K : PUnit → sProp 𝕄) :
    iprop(owns (c : Thread nD τ) arg2 fullShare e ∗ owns (c : Thread nD τ) arg3 fullShare x
        ∗ owns (c : Thread nD τ) arg4 fullShare o ∗ owns (c : Thread nD τ) arg5 fullShare s
        ∗ (iprop(owns (c : Thread nD τ) arg2 fullShare e ∗ owns (c : Thread nD τ) arg3 fullShare x
            ∗ owns (c : Thread nD τ) arg4 fullShare o ∗ owns (c : Thread nD τ) arg5 fullShare (k1_pay2 e x (k1_pay1 (F := F)))) -∗ K ⟨⟩))
      ⊢ wp frame (wpE (defs₀ (F := F)) Variants.none c none) E (cc1__proj_kernel i arg2 harg2 arg3 harg3 arg4 harg4 arg5 harg5) K := by
  -- the first test holds: the accumulator is overwritten with the zero block before it is read
  simp only [cc1__proj_kernel_eq_skeleton]; unfold cc1__proj_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr; swap; · iexact H5
  ipureintro
  sl_unfold_words
  -- the last store's payload; its third operand is the accumulator read back after the clearing store
  rw [proj_read_stored, proj_load_whole_sq, proj_load_whole, proj_load_stored]

set_option maxHeartbeats 1000000 in
/-- 0 < ki < 7: the accumulator gains this tile's product; the output block is left as found. -/
theorem proj_mid (h0 : ¬ first1 i) (h1 : ¬ last1 i) (K : PUnit → sProp 𝕄) :
    iprop(owns (c : Thread nD τ) arg2 fullShare e ∗ owns (c : Thread nD τ) arg3 fullShare x
        ∗ owns (c : Thread nD τ) arg4 fullShare o ∗ owns (c : Thread nD τ) arg5 fullShare s
        ∗ (iprop(owns (c : Thread nD τ) arg2 fullShare e ∗ owns (c : Thread nD τ) arg3 fullShare x
            ∗ owns (c : Thread nD τ) arg4 fullShare o ∗ owns (c : Thread nD τ) arg5 fullShare (k1_pay2 e x s)) -∗ K ⟨⟩))
      ⊢ wp frame (wpE (defs₀ (F := F)) Variants.none c none) E (cc1__proj_kernel i arg2 harg2 arg3 harg3 arg4 harg4 arg5 harg5) K := by
  -- both tests fail: the body is the three loads and the one store into the accumulator
  simp only [cc1__proj_kernel_eq_skeleton]; unfold cc1__proj_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr; swap; · iexact H5
  ipureintro
  -- the accumulator reads as the stored payload, whose three operands are the buffers as found
  rw [proj_read_stored, proj_load_whole_sq, proj_load_whole, proj_load_whole]

set_option maxHeartbeats 1000000 in
/-- ki = 7: the accumulator gains this tile's product and the output block receives a copy of it. -/
theorem proj_last (h0 : ¬ first1 i) (h1 : last1 i) (K : PUnit → sProp 𝕄) :
    iprop(owns (c : Thread nD τ) arg2 fullShare e ∗ owns (c : Thread nD τ) arg3 fullShare x
        ∗ owns (c : Thread nD τ) arg4 fullShare o ∗ owns (c : Thread nD τ) arg5 fullShare s
        ∗ (iprop(owns (c : Thread nD τ) arg2 fullShare e ∗ owns (c : Thread nD τ) arg3 fullShare x
            ∗ owns (c : Thread nD τ) arg4 fullShare (k1_pay2 e x s) ∗ owns (c : Thread nD τ) arg5 fullShare (k1_pay2 e x s)) -∗ K ⟨⟩))
      ⊢ wp frame (wpE (defs₀ (F := F)) Variants.none c none) E (cc1__proj_kernel i arg2 harg2 arg3 harg3 arg4 harg4 arg5 harg5) K := by
  -- the second test holds: after the store into the accumulator it is read back and copied to the output block
  simp only [cc1__proj_kernel_eq_skeleton]; unfold cc1__proj_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_words
    -- the output block reads as what was stored into it: the accumulator read back after its own store
    rw [proj_read_stored, proj_load_stored, proj_load_whole_sq, proj_load_whole, proj_load_whole]
  iexists _; isplitr; swap; · iexact H5
  ipureintro
  sl_unfold_words
  rw [proj_read_stored, proj_load_whole_sq, proj_load_whole, proj_load_whole]

end

end Cert.KernelIdeal.Run

end
-- ==== Proof.Ideal.ProjData.lean ====
/-
  The proof data of the back-projection region: what every staging buffer and the accumulator hold after each grid
  point, and the region's per-point obligation.
  Point t is (ni, ki) = (t / 8, t % 8). The two inputs keep their blocks. The accumulator after point t is
  `accAt1 (t + 1)`: the tile products of column tiles 0 … ki of row tile ni, added to zero. The output's staging
  buffer after point t is a copy of the accumulator; it is written back only at ki = 7.
-/
import proofs.«117679_j80891414053479_1_alg».proof.Proof.Ideal.ProjBody
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n - 1` (anything fixed before the first point): over what the point before left,
    restarted from zero where the inner coordinate is 0. -/
def accAt1 (c : Dev nD) : ℕ → Vec F S1024x256 .f32
  | 0 => k1_pay1
  | n + 1 =>
    if h : n < cfg1.N then
      k1_pay2 (iblk1 V c 0 ⟨n, h⟩) (iblk1 V c 1 ⟨n, h⟩) (if n % 8 = 0 then k1_pay1 else accAt1 c n)
    else accAt1 c n

theorem accAt1_succ (c : Dev nD) (t : Fin cfg1.N) :
    accAt1 V c (t.val + 1) = k1_pay2 (iblk1 V c 0 t) (iblk1 V c 1 t) (if t.val % 8 = 0 then k1_pay1 else accAt1 V c t.val) := by
  rw [accAt1, dif_pos t.isLt]

/-- The accumulator buffer, and the core's other scoped buffers that are no staging buffer of this region. -/
abbrev scM1 : Memref sig .tc .vmem S1024x256 .f32 := Memref.whole cc1_scratch0
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant before point `t`: the accumulator at some contents, which after the first point are the
    accumulated ones; the other scoped buffers and the generator register, unread. -/
def Phi1 (c : Dev nD) (t : Fin (cfg1.N + 1)) : sProp 𝕄 :=
  iprop((∃ d, ⌜t.val ≠ 0 → d = accAt1 V c t.val⌝ ∗ owns (c : Thread nD τ) scM1 fullShare d) ∗ others1 (F := F) c ∗ ∃ r, prngReg c r)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c (t.val + 1)
  Φ t := Phi1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c (t.val + 1) := by dsimp only [dat1]
theorem Phi_eq1 (c : Dev nD) (t : Fin (cfg1.N + 1)) : (dat1 V c).Φ t = Phi1 V c t := by dsimp only [dat1]

/-! ## The branch tests and the output window's idle points, in closed form over the grid -/

/-- The body clears the accumulator exactly at the points whose inner coordinate is 0. -/
theorem first1_iff : ∀ t : Fin cfg1.N, first1 (grid1.coords t) ↔ t.val % 8 = 0 :=
  (by decide +kernel : ∀ t : Fin grid1.N, first1 (grid1.coords t) ↔ t.val % 8 = 0)
/-- It writes the output block exactly at the points whose inner coordinate is 7. -/
theorem last1_iff : ∀ t : Fin cfg1.N, last1 (grid1.coords t) ↔ t.val % 8 = 7 :=
  (by decide +kernel : ∀ t : Fin grid1.N, last1 (grid1.coords t) ↔ t.val % 8 = 7)
/-- The two inputs are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle away from the inner coordinate 7, and live there. -/
theorem idle1_2 : ∀ t : Fin cfg1.N, ¬ t.val % 8 = 7 → cfg1.idle 2 (grid1.coords t) = true := by decide +kernel
theorem live1_2 : ∀ t : Fin cfg1.N, t.val % 8 = 7 → cfg1.idle 2 (grid1.coords t) = false := by decide +kernel
/-- Away from the inner coordinate 7 the output block is not written back. -/
theorem noFlush1_2 (t : Fin cfg1.N) (h : ¬ t.val % 8 = 7) : (cfg1.win 2).flush t = false := by
  cases hf : (cfg1.win 2).flush t
  · rfl
  · exact absurd ((flush1_2 t).mp hf) h

/-! ## What the body finds in the inputs' staging buffers -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [Phi_eq1, Phi_eq1]; unfold Phi1
  have hs : (t.succ).val = t.val + 1 := Fin.val_succ t
  have hc : (t.castSucc).val = t.val := Fin.coe_castSucc t
  by_cases h7 : t.val % 8 = 7
  · have h0 : ¬ t.val % 8 = 0 := by omega
    rw [show (dat1 V c).leavesExact 2 t = owns (c : Thread nD τ) (st1_2 t) fullShare ((dat1 V c).after 2 t) from by
      unfold Dat.leavesExact; rw [live1_2 t h7], after1_2]
    iintro ⟨⟨⟨%d, %hd, HS⟩, Hoth, Hg⟩, Ho, ⟨%d0, H0⟩, ⟨%d1, H1⟩, ⟨%d2, H2⟩⟩
    have hacc : accAt1 V c (t.val + 1) = k1_pay2 (iblk1 V c 0 t) (iblk1 V c 1 t) d := by
      rw [accAt1_succ, if_neg h0, hd (by rw [hc]; omega), hc]
    rw [hs, hacc]
    iapply (proj_last c Set.univ (grid1.coords t) _ _ _ _ _ _ _ _ (iblk1 V c 0 t) (iblk1 V c 1 t) ((dat1 V c).before 2 t d2) d
      (fun h => h0 ((first1_iff t).mp h)) ((last1_iff t).mpr h7) _)
    isplitl [H0]; · iexact H0
    isplitl [H1]; · iexact H1
    isplitl [H2]; · iexact H2
    isplitl [HS]; · iexact HS
    iintro ⟨H0, H1, H2, HS⟩
    isplitl [HS Hoth Hg]
    · isplitl [HS]
      · iexists _; isplitr
        · ipureintro; exact fun _ => rfl
        iexact HS
      isplitl [Hoth]; · iexact Hoth
      iexact Hg
    isplitl [Ho]; · iexact Ho
    isplitl [H0]; · iexact H0
    isplitl [H1]; · iexact H1
    iexact H2
  · rw [Dat.leavesExact_idle (dat1 V c) 2 t (idle1_2 t h7) (noFlush1_2 t h7)]
    by_cases h0 : t.val % 8 = 0
    · iintro ⟨⟨⟨%d, %hd, HS⟩, Hoth, Hg⟩, Ho, ⟨%d0, H0⟩, ⟨%d1, H1⟩, ⟨%d2, H2⟩⟩
      have hacc : accAt1 V c (t.val + 1) = k1_pay2 (iblk1 V c 0 t) (iblk1 V c 1 t) (k1_pay1 (F := F)) := by
        rw [accAt1_succ, if_pos h0]
      rw [hs, hacc]
      iapply (proj_first c Set.univ (grid1.coords t) _ _ _ _ _ _ _ _ (iblk1 V c 0 t) (iblk1 V c 1 t) ((dat1 V c).before 2 t d2) d
        ((first1_iff t).mpr h0) (fun h => h7 ((last1_iff t).mp h)) _)
      isplitl [H0]; · iexact H0
      isplitl [H1]; · iexact H1
      isplitl [H2]; · iexact H2
      isplitl [HS]; · iexact HS
      iintro ⟨H0, H1, H2, HS⟩
      isplitl [HS Hoth Hg]
      · isplitl [HS]
        · iexists _; isplitr
          · ipureintro; exact fun _ => rfl
          iexact HS
        isplitl [Hoth]; · iexact Hoth
        iexact Hg
      isplitl [Ho]; · iexact Ho
      isplitl [H0]; · iexact H0
      isplitl [H1]; · iexact H1
      iexists _; iexact H2
    · iintro ⟨⟨⟨%d, %hd, HS⟩, Hoth, Hg⟩, Ho, ⟨%d0, H0⟩, ⟨%d1, H1⟩, ⟨%d2, H2⟩⟩
      have hacc : accAt1 V c (t.val + 1) = k1_pay2 (iblk1 V c 0 t) (iblk1 V c 1 t) d := by
        rw [accAt1_succ, if_neg h0, hd (by rw [hc]; omega), hc]
      rw [hs, hacc]
      iapply (proj_mid c Set.univ (grid1.coords t) _ _ _ _ _ _ _ _ (iblk1 V c 0 t) (iblk1 V c 1 t) ((dat1 V c).before 2 t d2) d
        (fun h => h0 ((first1_iff t).mp h)) (fun h => h7 ((last1_iff t).mp h)) _)
      isplitl [H0]; · iexact H0
      isplitl [H1]; · iexact H1
      isplitl [H2]; · iexact H2
      isplitl [HS]; · iexact HS
      iintro ⟨H0, H1, H2, HS⟩
      isplitl [HS Hoth Hg]
      · isplitl [HS]
        · iexists _; isplitr
          · ipureintro; exact fun _ => rfl
          iexact HS
        isplitl [Hoth]; · iexact Hoth
        iexact Hg
      isplitl [Ho]; · iexact Ho
      isplitl [H0]; · iexact H0
      isplitl [H1]; · iexact H1
      iexists _; iexact H2

/-- The region's obligation at every point. -/
theorem body_obligation1 (c : Dev nD) : BodyObligation (dat1 (F := F) V c) (defs₀ (F := F)) Variants.none () Set.univ := fun t => by
  rw [bigSep_W1, bigSep_W1]
  exact sound_body1 V c t

/-- What the launch hands the region makes the invariant before the first point. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [Phi_eq1, scopedRest1_eq]; unfold Phi1 others1
  iintro ⟨Hg, B0, B1, B2, B3, B4, B5, B6, B7, B8, ⟨%f, HS⟩⟩
  isplitl [HS]
  · iexists f; isplitr
    · ipureintro; exact fun h => absurd rfl h
    rw [owns_whole]; iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg

/-- After the last point the invariant gives the generator register and those scoped buffers back. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [Phi_eq1, scopedRest1_eq]; unfold Phi1 others1
  simp only [scM1, owns_whole]
  iintro ⟨⟨%d, %hd, HS⟩, ⟨B0, B1, B2, B3, B4, B5, B6, B7, B8⟩, Hg⟩
  isplitl [Hg]; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  iexists d; iexact HS

end

end Cert.KernelIdeal.Run

end
-- ==== Proof.Ideal.Run.lean ====
/-
  The whole program's run: three stretches of host operations, the spectral-projection region, the back-projection
  region. Between two items every unscoped buffer of the core is held at a named valuation: the launch memory, then
  each host stretch's operations applied, then each region's arrays at what its write-backs leave and every other
  buffer as the region found it. The arguments are written by no item, so they end as launched; the result buffer
  ends at the second region's final output array.
-/
import proofs.«117679_j80891414053479_1_alg».proof.Proof.Ideal.SpecData
import proofs.«117679_j80891414053479_1_alg».proof.Proof.Ideal.ProjData
import proofs.«117679_j80891414053479_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Region 0's entry contents (after the three host stretches), read at the TensorCore's references. -/
abbrev E3 : (c : Dev nD) → (b : Ref sig .tc) → Buf (Elt F) ((c : Thread nD τ).loc b) := fun c b => V3 m c b
/-- At region 0's exit. -/
def B4 (c : Dev nD) : Valuation τ sig (Elt F) :=
  Pipeline.withArrays spec0 c (V3 m c) fun w => (dat0 (E3 m) c).arrAt w cfg0.N
theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = V3 m c (Proc.devRef .tc b) := by
  unfold B4; exact Pipeline.withArrays_of_ne spec0 c _ _ b hb
abbrev E4 : (c : Dev nD) → (b : Ref sig .tc) → Buf (Elt F) ((c : Thread nD τ).loc b) := fun c b => B4 m c b
theorem hF0 (c : Dev nD) (w : Fin cfg0.W) : (dat0 (E3 m) c).arrAt w cfg0.N = E4 m c (Pipeline.arrRef spec0 w) :=
  (B4_arr m c w).symm
theorem hrest0 (c : Dev nD) : ∀ b, b ∉ Finset.univ.image (Pipeline.arrRef spec0) → E4 m c b = E3 m c b :=
  fun b hb => B4_of_ne m c b fun w e => hb (Finset.mem_image.mpr ⟨w, Finset.mem_univ _, e⟩)

/-- At region 1's exit. -/
def B5 (c : Dev nD) : Valuation τ sig (Elt F) :=
  Pipeline.withArrays spec1 c (B4 m c) fun w => (dat1 (E4 m) c).arrAt w cfg1.N
theorem B5_arr (c : Dev nD) (w : Fin cfg1.W) :
    B5 m c (Proc.devRef .tc (Pipeline.arrRef spec1 w)) = (dat1 (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev E5 : (c : Dev nD) → (b : Ref sig .tc) → Buf (Elt F) ((c : Thread nD τ).loc b) := fun c b => B5 m c b
theorem hF1 (c : Dev nD) (w : Fin cfg1.W) : (dat1 (E4 m) c).arrAt w cfg1.N = E5 m c (Pipeline.arrRef spec1 w) :=
  (B5_arr m c w).symm
theorem hrest1 (c : Dev nD) : ∀ b, b ∉ Finset.univ.image (Pipeline.arrRef spec1) → E5 m c b = E4 m c b :=
  fun b hb => B5_of_ne m c b fun w e => hb (Finset.mem_image.mpr ⟨w, Finset.mem_univ _, e⟩)

/-! ## No item writes an argument -/

theorem B5_main_arg0 (c : Dev nD) : B5 m c (Proc.devRef .tc main_arg0) = m ((c : Thread nD τ).loc main_arg0) :=
  calc B5 m c (Proc.devRef .tc main_arg0)
    _ = B4 m c (Proc.devRef .tc main_arg0) := B5_of_ne m c main_arg0 (by decide)
    _ = V3 m c (Proc.devRef .tc main_arg0) := (B4_arr m c 1).trans (((dat0 (E3 m) c).arrAt_in 1 rfl _).trans (A_eq0 (E3 m) c 1))
    _ = m ((c : Thread nD τ).loc main_arg0) :=
      (V3_of m c main_arg0 (by decide)).trans <| (V2_of m c main_arg0 (by decide)).trans <| (V1_of m c main_arg0 (by decide)).trans rfl
theorem B5_main_arg1 (c : Dev nD) : B5 m c (Proc.devRef .tc main_arg1) = m ((c : Thread nD τ).loc main_arg1) :=
  calc B5 m c (Proc.devRef .tc main_arg1)
    _ = B4 m c (Proc.devRef .tc main_arg1) := B5_of_ne m c main_arg1 (by decide)
    _ = V3 m c (Proc.devRef .tc main_arg1) := B4_of_ne m c main_arg1 (by decide)
    _ = m ((c : Thread nD τ).loc main_arg1) :=
      (V3_of m c main_arg1 (by decide)).trans <| (V2_of m c main_arg1 (by decide)).trans <| (V1_of m c main_arg1 (by decide)).trans rfl
theorem B5_main_arg2 (c : Dev nD) : B5 m c (Proc.devRef .tc main_arg2) = m ((c : Thread nD τ).loc main_arg2) :=
  calc B5 m c (Proc.devRef .tc main_arg2)
    _ = B4 m c (Proc.devRef .tc main_arg2) := (B5_arr m c 0).trans (((dat1 (E4 m) c).arrAt_in 0 rfl _).trans (A_eq1 (E4 m) c 0))
    _ = V3 m c (Proc.devRef .tc main_arg2) := (B4_arr m c 0).trans (((dat0 (E3 m) c).arrAt_in 0 rfl _).trans (A_eq0 (E3 m) c 0))
    _ = m ((c : Thread nD τ).loc main_arg2) :=
      (V3_of m c main_arg2 (by decide)).trans <| (V2_of m c main_arg2 (by decide)).trans <| (V1_of m c main_arg2 (by decide)).trans rfl
theorem B5_main_arg3 (c : Dev nD) : B5 m c (Proc.devRef .tc main_arg3) = m ((c : Thread nD τ).loc main_arg3) :=
  calc B5 m c (Proc.devRef .tc main_arg3)
    _ = B4 m c (Proc.devRef .tc main_arg3) := B5_of_ne m c main_arg3 (by decide)
    _ = V3 m c (Proc.devRef .tc main_arg3) := B4_of_ne m c main_arg3 (by decide)
    _ = m ((c : Thread nD τ).loc main_arg3) :=
      (V3_of m c main_arg3 (by decide)).trans <| (V2_of m c main_arg3 (by decide)).trans <| (V1_of m c main_arg3 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E4 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The last thread state, without the `owes`. -/
abbrev Tn (c : Dev nD) : sProp 𝕄 := iprop(StableHlo.held (c : Thread nD τ) (Pipeline.ucRefs τ sig) (B5 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the boundary's contents, left with its arrays
    at what the write-backs leave; the generator register passes through the region's invariant; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E3 m) c).Φ 0 from rfl]
    iintro ⟨Hp, -, Hr⟩
    iapply (hin0 (E3 m) c)
    isplitl [Hp]; · iexact Hp
    iexact Hr
  hout c := by
    rw [Pipeline.ownSems0_none, show (pdats m 0 c).Φ (Fin.last _) = (dat0 (E3 m) c).Φ (Fin.last cfg0.N) from rfl]
    iintro H
    ihave H' := (hout0 (E3 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left with its arrays
    at what the write-backs leave; the generator register passes through the region's invariant; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (B4 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E4 m) c).Φ 0 from rfl]
    iintro ⟨Hp, -, Hr⟩
    iapply (hin1 (E4 m) c)
    isplitl [Hp]; · iexact Hp
    iexact Hr
  hout c := by
    rw [Pipeline.ownSems0_none, show (pdats m 1 c).Φ (Fin.last _) = (dat1 (E4 m) c).Φ (Fin.last cfg1.N) from rfl]
    iintro H
    ihave H' := (hout1 (E4 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (seg0 m 𝒱₀ L lv fun _ => R), .host (seg1 m 𝒱₀ L lv fun _ => R), .host (seg2 m 𝒱₀ L lv fun _ => R),
    .region (reg0 m), .region (reg1 m) ]

set_option backward.isDefEq.respectTransparency.types false in
/-- Every weakly fair execution of @main from memory `m` with zero counters terminates, nothing faulting; the result
    buffer ends at the second region's final output array and every argument as launched. -/
theorem run_main : θ_run defs (onTc (τ := τ) (main (F := F))) ⟨m, fun _ => 0, ρ⟩ (fun r => ∀ c : Dev nD,
      r.2.mem ((c.tc : Thread nD τ).loc main_v8) = (dat1 (E4 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tn m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c =>
      ⟨(h c _ (mem_uc main_v8 (by decide))).trans (B5_arr m c 2),
       (h c _ (mem_uc main_arg0 (by decide))).trans (B5_main_arg0 m c),
       (h c _ (mem_uc main_arg1 (by decide))).trans (B5_main_arg1 m c),
       (h c _ (mem_uc main_arg2 (by decide))).trans (B5_main_arg2 m c),
       (h c _ (mem_uc main_arg3 (by decide))).trans (B5_main_arg3 m c)⟩)

end Cert.KernelIdeal.Run

end
-- ==== Proof.Spec.lean ====
/-
  The mathematics of the certificate, over the extended reals, with no program in sight.
  With E = evecs (8192 × 8192), X = x (8192 × 256) and a coefficient column K (8192 × 1):
    spectrum E X K [q, c] = (Σ_n E[n, q] · X[n, c]) · K[q, 0]        (Eᵀ X, each row scaled)
    project  E S   [n, c] = Σ_q E[n, q] · S[q, c]                      (E S)
  The kernel computes `project E (spectrum E X K)` tile by tile; the reference computes the same two products whole,
  scaling from the left. Sums of extended reals regroup freely (addition is commutative and associative there) and
  the product commutes, so no finiteness is needed.
-/
import Idealize.ShloMosaic.PureOps.Ideal
import Idealize.ShloMosaic.Lib.ValueIdx

noncomputable section

namespace Cert.Spec

open Idealize.ShloMosaic Idealize.ShloMosaic.ValueIdx

abbrev SNN : Shape := ⟨2, ![8192, 8192]⟩
abbrev SNC : Shape := ⟨2, ![8192, 256]⟩
abbrev SN1 : Shape := ⟨2, ![8192, 1]⟩

/-- Eᵀ X with row q scaled by K[q, 0]. -/
def spectrum (e : Vec Ideal SNN .f32) (x : Vec Ideal SNC .f32) (k : Vec Ideal SN1 .f32) : Vec Ideal SNC .f32 :=
  fun j => (∑ n : Fin 8192, e (ix2 n (j 0)) * x (ix2 n (j 1))) * k (ix2 (j 0) (0 : Fin 1))

/-- E S. -/
def project (e : Vec Ideal SNN .f32) (s : Vec Ideal SNC .f32) : Vec Ideal SNC .f32 :=
  fun j => ∑ q : Fin 8192, e (ix2 (j 0) q) * s (ix2 q (j 1))

theorem spectrum_apply (e : Vec Ideal SNN .f32) (x : Vec Ideal SNC .f32) (k : Vec Ideal SN1 .f32) (q : Fin 8192) (c : Fin 256) :
    spectrum e x k (ix2 q c) = (∑ n : Fin 8192, e (ix2 n q) * x (ix2 n c)) * k (ix2 q (0 : Fin 1)) := rfl

theorem project_apply (e : Vec Ideal SNN .f32) (s : Vec Ideal SNC .f32) (n : Fin 8192) (c : Fin 256) :
    project e s (ix2 n c) = ∑ q : Fin 8192, e (ix2 n q) * s (ix2 q c) := rfl

end Cert.Spec

end
-- ==== Proof.Ideal.SpecValue.lean ====
/-
  What the spectral-projection region leaves in its output array, at the extended reals: one whole-array function of
  the arrays it read. For column tile ki the accumulator after row tile ni is the sum over the rows of tiles 0 … ni, so
  at ni = 7 it is the sum over all 8192 rows; the block written back there is that sum scaled by the coefficient
  column, which is block ki of `spectrum`; the eight written blocks tile the array.
-/
import proofs.«117679_j80891414053479_1_alg».proof.Proof.Ideal.SpecData
import proofs.«117679_j80891414053479_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

namespace SpecValue

/-! ## The three payloads at an index -/

/-- The reset block is zero everywhere. -/
theorem pay1_apply (r : Fin 1024) (col : Fin 256) : (k0_pay1 (F := Ideal)) (ix2 r col) = 0 := by
  unfold k0_pay1
  rw [shapeCast_self]
  exact Ideal.ofBits_zero_f32

/-- The tile product contracts axis 0 of both operands: at output (r, col) and contraction index k the left operand is
    read at (k, r) and the right at (k, col). The four coordinates, one by one. -/
theorem lhs_tile_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
theorem lhs_tile_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
theorem rhs_tile_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem rhs_tile_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

/-- One tile's product at (r, col): the tile's rows are contracted. -/
theorem tile_apply (e : FVec Ideal S1024x1024 .bf16) (x : FVec Ideal S1024x256 .bf16) (r : Fin 1024) (col : Fin 256) :
    matmul (F := Ideal) dot_S1024x1024_S1024x256_S1024x256_0_0_1_1_n_n none e x (constant S1024x256 .f32 0x00000000#32) (ix2 r col)
      = ∑ k : Fin 1024, e (ix2 k r) * x (ix2 k col) := by
  show FloatOps.matmul dot_S1024x1024_S1024x256_S1024x256_0_0_1_1_n_n none e x (constant S1024x256 .f32 0x00000000#32) (ix2 r col) = _
  rw [Ideal.matmul_constant_zero_apply, ← Equiv.sum_comp (ValueIdx.contrEquiv1 dot_S1024x1024_S1024x256_S1024x256_0_0_1_1_n_n 1024 rfl rfl).symm]
  refine Finset.sum_congr rfl fun k _ => ?_
  have hk := ValueIdx.contrEquiv1_symm_val dot_S1024x1024_S1024x256_S1024x256_0_0_1_1_n_n 1024 rfl rfl k
  have el : dot_S1024x1024_S1024x256_S1024x256_0_0_1_1_n_n.lhsIdx (ix2 r col) ((ValueIdx.contrEquiv1 dot_S1024x1024_S1024x256_S1024x256_0_0_1_1_n_n 1024 rfl rfl).symm k) = ix2 k r := funext fun a => Fin.ext (by
    match a with
    | ⟨0, _⟩ => exact (lhs_tile_0 _ _).trans hk
    | ⟨1, _⟩ => exact lhs_tile_1 _ _)
  have er : dot_S1024x1024_S1024x256_S1024x256_0_0_1_1_n_n.rhsIdx (ix2 r col) ((ValueIdx.contrEquiv1 dot_S1024x1024_S1024x256_S1024x256_0_0_1_1_n_n 1024 rfl rfl).symm k) = ix2 k col := funext fun a => Fin.ext (by
    match a with
    | ⟨0, _⟩ => exact (rhs_tile_0 _ _).trans hk
    | ⟨1, _⟩ => exact rhs_tile_1 _ _)
  rw [el, er]

/-- The update: the accumulator plus the tile's product (a change of float format is the identity here). -/
theorem pay2_apply (e : Vec Ideal S1024x1024 .f32) (x : Vec Ideal S1024x256 .f32) (a : Vec Ideal S1024x256 .f32)
    (r : Fin 1024) (col : Fin 256) :
    k0_pay2 e x a (ix2 r col) = a (ix2 r col) + ∑ n : Fin 1024, e (ix2 n r) * x (ix2 n col) := by
  unfold k0_pay2
  rw [shapeCast_self]
  exact congrArg (a (ix2 r col) + ·) (tile_apply _ _ r col)

/-- The written block: each row of the accumulator scaled by that row's entry of the coefficient column. -/
theorem pay3_apply (acc : Vec Ideal S1024x256 .f32) (k : Vec Ideal S1024x1 .f32) (r : Fin 1024) (col : Fin 256) :
    k0_pay3 acc k (ix2 r col) = acc (ix2 r col) * k (ix2 r (0 : Fin 1)) := by
  unfold k0_pay3
  rw [shapeCast_self]
  refine congrArg (acc (ix2 r col) * ·) (broadcastTo_apply k broadcasts_S1024x1_S1024x256 (ix2 r col) (ix2 r (0 : Fin 1)) fun a => ?_)
  match a with
  | ⟨0, _⟩ => rfl
  | ⟨1, _⟩ => rfl

/-! ## Where a block's element sits in its array

Point `t` is column tile `ki = t / 8`, row tile `ni = t % 8`. Row `n` of row tile `m` is row `1024 m + n` of the array. -/

section
variable (V : (c : Dev nD) → (b : Ref sig .tc) → Buf (Elt Ideal) ((c : Thread nD τ).loc b))

/-- The three arrays the region reads: the eigenvector matrix, the data, the coefficient column. -/
abbrev evecs (c : Dev nD) : Vec Ideal S8192x8192 .f32 := V c main_arg2
abbrev xdata (c : Dev nD) : Vec Ideal S8192x256 .f32 := V c main_arg0
abbrev coefs (c : Dev nD) : Vec Ideal S8192x1 .f32 := V c main_v6

/-- Offset `n` inside tile `m` of an axis of extent 8192 cut into eight tiles of 1024. -/
abbrev inTile (m : Fin 8) (n : Fin 1024) : Fin 8192 := ⟨1024 * m.val + n.val, by have := m.isLt; have := n.isLt; omega⟩

/-- The windows' block indices over the grid: the eigenvector block is (ni, ki), the data block (ni, 0), the
    coefficient and output blocks (ki, 0). -/
theorem idx_facts0 : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- The eigenvector block at point (ki, ni): rows of tile ni, columns of tile ki. -/
theorem eblk_apply (c : Dev nD) (t : Fin cfg0.N) (ki ni : Fin 8) (hki : t.val / 8 = ki.val) (hni : t.val % 8 = ni.val)
    (n r : Fin 1024) :
    (iblk0 V c 0 t : Vec Ideal S1024x1024 .f32) (ix2 n r) = evecs V c (ix2 (inTile ni n) (inTile ki r)) := by
  obtain ⟨e0, e1, -⟩ := idx_facts0 t
  unfold iblk0
  rw [View.read_apply]
  show V c main_arg2 _ = V c main_arg2 _
  congr 1
  funext a
  apply Fin.ext
  match a with
  | ⟨0, _⟩ => show win0_0.index t (0 : Fin 2) * 1024 + 1 * n.val = 1024 * ni.val + n.val; rw [e0, hni]; omega
  | ⟨1, _⟩ => show win0_0.index t (1 : Fin 2) * 1024 + 1 * r.val = 1024 * ki.val + r.val; rw [e1, hki]; omega

/-- The data block at point (ki, ni): rows of tile ni, all columns. -/
theorem xblk_apply (c : Dev nD) (t : Fin cfg0.N) (ni : Fin 8) (hni : t.val % 8 = ni.val) (n : Fin 1024) (col : Fin 256) :
    (iblk0 V c 1 t : Vec Ideal S1024x256 .f32) (ix2 n col) = xdata V c (ix2 (inTile ni n) col) := by
  obtain ⟨-, -, e2, e3, -⟩ := idx_facts0 t
  unfold iblk0
  rw [View.read_apply]
  show V c main_arg0 _ = V c main_arg0 _
  congr 1
  funext a
  apply Fin.ext
  match a with
  | ⟨0, _⟩ => show win0_1.index t (0 : Fin 2) * 1024 + 1 * n.val = 1024 * ni.val + n.val; rw [e2, hni]; omega
  | ⟨1, _⟩ => show win0_1.index t (1 : Fin 2) * 256 + 1 * col.val = col.val; rw [e3]; omega

/-- The coefficient block at point (ki, ni): rows of tile ki of the column. -/
theorem kblk_apply (c : Dev nD) (t : Fin cfg0.N) (ki : Fin 8) (hki : t.val / 8 = ki.val) (r : Fin 1024) :
    (iblk0 V c 2 t : Vec Ideal S1024x1 .f32) (ix2 r (0 : Fin 1)) = coefs V c (ix2 (inTile ki r) (0 : Fin 1)) := by
  obtain ⟨-, -, -, -, e4, e5, -⟩ := idx_facts0 t
  unfold iblk0
  rw [View.read_apply]
  show V c main_v6 _ = V c main_v6 _
  congr 1
  funext a
  apply Fin.ext
  match a with
  | ⟨0, _⟩ => show win0_2.index t (0 : Fin 2) * 1024 + 1 * r.val = 1024 * ki.val + r.val; rw [e4, hki]; omega
  | ⟨1, _⟩ => show win0_2.index t (1 : Fin 2) * 1 + 1 * 0 = 0; rw [e5]

end

/-! ## The accumulator along a row of the grid -/

section
variable (V : (c : Dev nD) → (b : Ref sig .tc) → Buf (Elt Ideal) ((c : Thread nD τ).loc b))

/-- Row tile `m`'s share of entry (1024 ki + r, col) of EᵀX: the sum over the tile's 1024 rows. -/
def tileSum (c : Dev nD) (ki m : Fin 8) (r : Fin 1024) (col : Fin 256) : EReal :=
  ∑ n : Fin 1024, evecs V c (ix2 (inTile m n) (inTile ki r)) * xdata V c (ix2 (inTile m n) col)

/-- One point of the grid: the accumulator, restarted from zero at row tile 0, gains the point's tile share. -/
theorem acc_step (c : Dev nD) (t : Fin cfg0.N) (ki ni : Fin 8) (hki : t.val / 8 = ki.val) (hni : t.val % 8 = ni.val)
    (r : Fin 1024) (col : Fin 256) :
    accAt0 V c (t.val + 1) (ix2 r col)
      = (if t.val % 8 = 0 then 0 else accAt0 V c t.val (ix2 r col)) + tileSum V c ki ni r col := by
  rw [accAt0_succ]
  refine (pay2_apply (iblk0 V c 0 t) (iblk0 V c 1 t) (if t.val % 8 = 0 then (k0_pay1 (F := Ideal)) else accAt0 V c t.val) r col).trans ?_
  congr 1
  · by_cases h0 : t.val % 8 = 0
    · rw [if_pos h0, if_pos h0]; exact pay1_apply r col
    · rw [if_neg h0, if_neg h0]
  · unfold tileSum
    refine Finset.sum_congr rfl fun n _ => ?_
    rw [eblk_apply V c t ki ni hki hni n r, xblk_apply V c t ni hni n col]

/-- After row tile `ni` of column tile `ki` the accumulator holds the shares of row tiles 0 … ni. -/
theorem acc_row (c : Dev nD) (ki : Fin 8) (r : Fin 1024) (col : Fin 256) :
    ∀ (ni : ℕ) (h : ni < 8), accAt0 V c (8 * ki.val + ni + 1) (ix2 r col)
      = ∑ m : Fin (ni + 1), tileSum V c ki ⟨m.val, lt_of_lt_of_le m.isLt h⟩ r col
  | 0, h => by
    have hk := ki.isLt
    have hN : 8 * ki.val + 0 < cfg0.N := by rw [show cfg0.N = 64 from N_0]; omega
    have e := acc_step V c ⟨8 * ki.val + 0, hN⟩ ki ⟨0, h⟩ (by show (8 * ki.val + 0) / 8 = ki.val; omega)
      (by show (8 * ki.val + 0) % 8 = 0; omega) r col
    rw [if_pos (by show (8 * ki.val + 0) % 8 = 0; omega), zero_add] at e
    rw [Fin.sum_univ_one]
    exact e
  | ni + 1, h => by
    have hk := ki.isLt
    have hN : 8 * ki.val + (ni + 1) < cfg0.N := by rw [show cfg0.N = 64 from N_0]; omega
    have e := acc_step V c ⟨8 * ki.val + (ni + 1), hN⟩ ki ⟨ni + 1, h⟩ (by show (8 * ki.val + (ni + 1)) / 8 = ki.val; omega)
      (by show (8 * ki.val + (ni + 1)) % 8 = ni + 1; omega) r col
    rw [if_neg (by show ¬ (8 * ki.val + (ni + 1)) % 8 = 0; omega)] at e
    have ih := acc_row c ki r col ni (by omega)
    rw [Fin.sum_univ_castSucc]
    refine e.trans ?_
    congr 1

/-- The eight tiles of 1024 are the 8192 rows. -/
theorem sum_tiles (f : Fin 8192 → EReal) : ∑ m : Fin 8, ∑ n : Fin 1024, f (inTile m n) = ∑ q : Fin 8192, f q := by
  symm
  rw [← Equiv.sum_comp ((finProdFinEquiv (m := 8) (n := 1024)).trans (finCongr (by norm_num : 8 * 1024 = 8192))) f,
    Fintype.sum_prod_type]
  refine Finset.sum_congr rfl fun m _ => Finset.sum_congr rfl fun n _ => congrArg f (Fin.ext ?_)
  show n.val + 1024 * m.val = 1024 * m.val + n.val
  omega

/-- At the last row tile the accumulator holds the whole column sum: entry (1024 ki + r, col) of EᵀX. -/
theorem acc_last (c : Dev nD) (t : Fin cfg0.N) (ki : Fin 8) (hki : t.val / 8 = ki.val) (h7 : t.val % 8 = 7)
    (r : Fin 1024) (col : Fin 256) :
    accAt0 V c (t.val + 1) (ix2 r col)
      = ∑ q : Fin 8192, evecs V c (ix2 q (inTile ki r)) * xdata V c (ix2 q col) := by
  have e := acc_row V c ki r col 7 (by omega)
  rw [show 8 * ki.val + 7 + 1 = t.val + 1 from by omega] at e
  rw [e, ← sum_tiles fun q => evecs V c (ix2 q (inTile ki r)) * xdata V c (ix2 q col)]
  rfl

end

/-! ## What is written back, and the whole array -/

section
variable (V : (c : Dev nD) → (b : Ref sig .tc) → Buf (Elt Ideal) ((c : Thread nD τ).loc b))

/-- The block written back at the last row tile of column tile ki is rows 1024 ki … of `spectrum`: the accumulated
    column sums, each row scaled by its coefficient. -/
theorem flushed_eq (c : Dev nD) (t : Fin cfg0.N) (hf : (cfg0.win 3).flush t = true) :
    (dat0 V c).flushed 3 t
      = ((cfg0.win 3).blk t).view.read (Elt Ideal) (Cert.Spec.spectrum (V c main_arg2) (V c main_arg0) (V c main_v6)) := by
  have h7 : t.val % 8 = 7 := (flush0_3 t).mp hf
  have hN : t.val < 64 := lt_of_lt_of_eq t.isLt (show cfg0.N = 64 from N_0)
  obtain ⟨ki, hki⟩ : ∃ ki : Fin 8, t.val / 8 = ki.val := ⟨⟨t.val / 8, by omega⟩, rfl⟩
  obtain ⟨-, -, -, -, -, -, e6, e7⟩ := idx_facts0 t
  show (cfg0.win 3).cut (grid0.coords t) ((dat0 V c).after 3 t) = _
  rw [after0_3]
  funext j
  obtain ⟨r, col, rfl⟩ : ∃ (r : Fin 1024) (col : Fin 256), j = ix2 r col := ⟨j 0, j 1, eq_ix2 j⟩
  have hemb : ((cfg0.win 3).blk t).view.emb (ix2 r col) = (ix2 (inTile ki r) col : S8192x256.Idx) := by
    funext a
    apply Fin.ext
    match a with
    | ⟨0, _⟩ => show win0_3.index t (0 : Fin 2) * 1024 + 1 * r.val = 1024 * ki.val + r.val; rw [e6, hki]; omega
    | ⟨1, _⟩ => show win0_3.index t (1 : Fin 2) * 256 + 1 * col.val = col.val; rw [e7]; omega
  show k0_pay3 (accAt0 V c (t.val + 1)) (iblk0 V c 2 t) (ix2 r col)
    = Cert.Spec.spectrum (V c main_arg2) (V c main_arg0) (V c main_v6) (((cfg0.win 3).blk t).view.emb (ix2 r col))
  rw [hemb]
  refine (pay3_apply (accAt0 V c (t.val + 1)) (iblk0 V c 2 t) r col).trans ?_
  rw [acc_last V c t ki hki h7 r col, kblk_apply V c t ki hki r]
  rfl

/-- An index of the output array is in point `t`'s block iff each coordinate is in the block's range on its axis. -/
theorem mem_oblk (t : Fin cfg0.N) (i : S8192x256.Idx) :
    i ∈ ((cfg0.win 3).blk t).view.set
      ↔ ∀ a : Fin 2, win0_3.index t a * S1024x256.size a ≤ (i a).val ∧ (i a).val < win0_3.index t a * S1024x256.size a + S1024x256.size a := by
  show i ∈ ((View.whole main_v7).slice (win0_3.rect t)).set ↔ _
  rw [View.set_slice_whole, Rect.mem_set_unit]
  exact Iff.rfl

/-- Row `q` of the output lies in the block written back at the last row tile of column tile `q / 1024`. -/
theorem covered (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  have hN : 8 * ((i 0).val / 1024) + 7 < cfg0.N := by rw [show cfg0.N = 64 from N_0]; omega
  refine ⟨⟨8 * ((i 0).val / 1024) + 7, hN⟩, (flush0_3 _).mpr (by show (8 * ((i 0).val / 1024) + 7) % 8 = 7; omega), ?_⟩
  obtain ⟨-, -, -, -, -, -, e6, e7⟩ := idx_facts0 ⟨8 * ((i 0).val / 1024) + 7, hN⟩
  have e6' : win0_3.index ⟨8 * ((i 0).val / 1024) + 7, hN⟩ (0 : Fin 2) = (i 0).val / 1024 := by
    rw [e6]; show (8 * ((i 0).val / 1024) + 7) / 8 = (i 0).val / 1024; omega
  rw [mem_oblk]
  intro a
  match a with
  | ⟨0, _⟩ =>
    show win0_3.index ⟨8 * ((i 0).val / 1024) + 7, hN⟩ (0 : Fin 2) * 1024 ≤ (i 0).val
      ∧ (i 0).val < win0_3.index ⟨8 * ((i 0).val / 1024) + 7, hN⟩ (0 : Fin 2) * 1024 + 1024
    rw [e6']; omega
  | ⟨1, _⟩ =>
    show win0_3.index ⟨8 * ((i 0).val / 1024) + 7, hN⟩ (1 : Fin 2) * 256 ≤ (i 1).val
      ∧ (i 1).val < win0_3.index ⟨8 * ((i 0).val / 1024) + 7, hN⟩ (1 : Fin 2) * 256 + 256
    rw [e7]; omega

end

end SpecValue

/-- The region's output array after the run is `spectrum` of the three arrays it read. -/
theorem spec_final (V : (c : Dev nD) → (b : Ref sig .tc) → Buf (Elt Ideal) ((c : Thread nD τ).loc b)) (c : Dev nD) :
    (dat0 (F := Ideal) V c).arrAt 3 cfg0.N
      = Cert.Spec.spectrum (V c main_arg2) (V c main_arg0) (V c main_v6) :=
  (dat0 V c).arrAt_eq_of_cover 3 (Cert.Spec.spectrum (V c main_arg2) (V c main_arg0) (V c main_v6))
    (fun t hf => SpecValue.flushed_eq V c t hf) SpecValue.covered

end Cert.KernelIdeal.Run

end
-- ==== Proof.Ideal.ProjValue.lean ====
/-
  What the back-projection region leaves in its output array, at the extended reals: one whole-array function of the
  arrays it read. For row tile ni the accumulator after column tile ki is the sum over the columns of tiles 0 … ki, so
  at ki = 7 it is the sum over all 8192 columns; the block written back there is block ni of `project`; the eight
  written blocks tile the array.
-/
import proofs.«117679_j80891414053479_1_alg».proof.Proof.Ideal.ProjData
import proofs.«117679_j80891414053479_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

namespace Proj

/-! ## One tile's product at an index -/

theorem lhs_tile_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_tile_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_tile_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_tile_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The tile's matrix product into zero, at row r and column col of the tile: the row of the left tile against the
    column of the right one. -/
theorem tileProd_apply (e : FVec Ideal S1024x1024 .bf16) (s : FVec Ideal S1024x256 .bf16) (r : Fin 1024) (col : Fin 256) :
    matmul dot_S1024x1024_S1024x256_S1024x256_1_0_0_1_n_n none e s (constant (F := Ideal) S1024x256 .f32 0x00000000#32) (ix2 r col)
      = ∑ k : Fin 1024, e (ix2 r k) * s (ix2 k col) := by
  refine (Ideal.matmul_constant_zero_apply dot_S1024x1024_S1024x256_S1024x256_1_0_0_1_n_n none e s (ix2 r col)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r col) ((contrEquiv1 dot_S1024x1024_S1024x256_S1024x256_1_0_0_1_n_n 1024 rfl rfl).symm k) = ix2 r k := funext fun a => Fin.ext (by
    match a with
    | ⟨0, _⟩ => exact lhs_tile_0 _ _
    | ⟨1, _⟩ => exact (lhs_tile_1 _ _).trans hk)
  have er : dot_S1024x1024_S1024x256_S1024x256_1_0_0_1_n_n.rhsIdx (ix2 r col) ((contrEquiv1 dot_S1024x1024_S1024x256_S1024x256_1_0_0_1_n_n 1024 rfl rfl).symm k) = ix2 k col := funext fun a => Fin.ext (by
    match a with
    | ⟨0, _⟩ => exact (rhs_tile_0 _ _).trans hk
    | ⟨1, _⟩ => exact rhs_tile_1 _ _)
  rw [el, er]

/-- The body's update at an index: what the accumulator held there plus the tile's product. -/
theorem pay2_apply (e : Vec Ideal S1024x1024 .f32) (s : Vec Ideal S1024x256 .f32) (a : Vec Ideal S1024x256 .f32) (r : Fin 1024) (col : Fin 256) :
    k1_pay2 (F := Ideal) e s a (ix2 r col) = a (ix2 r col) + ∑ k : Fin 1024, e (ix2 r k) * s (ix2 k col) := by
  unfold k1_pay2
  simp only [shapeCast_self]
  refine congrArg (a (ix2 r col) + ·) ?_
  exact tileProd_apply _ _ r col

/-- The value the accumulator restarts from is zero everywhere. -/
theorem pay1_apply (r : Fin 1024) (col : Fin 256) : k1_pay1 (F := Ideal) (ix2 r col) = 0 := by
  unfold k1_pay1
  simp only [shapeCast_self]
  exact Ideal.ofBits_zero_f32

/-! ## Entries by natural coordinates, and the regrouping of a sum over 8192 into eight tiles of 1024 -/

/-- Entry (a, b) of the 8192 × 8192 matrix, zero outside it. -/
def eAt (E : Vec Ideal S8192x8192 .f32) (a b : ℕ) : EReal :=
  if h : a < 8192 ∧ b < 8192 then E (ix2 ⟨a, h.1⟩ ⟨b, h.2⟩) else 0

/-- Entry (a, b) of the 8192 × 256 matrix, zero outside it. -/
def sAt (S : Vec Ideal S8192x256 .f32) (a b : ℕ) : EReal :=
  if h : a < 8192 ∧ b < 256 then S (ix2 ⟨a, h.1⟩ ⟨b, h.2⟩) else 0

/-- Row `row` of E restricted to column tile j, against column `col` of S restricted to row tile j. -/
def tileTerm (E : Vec Ideal S8192x8192 .f32) (S : Vec Ideal S8192x256 .f32) (row col j : ℕ) : EReal :=
  ∑ k : Fin 1024, eAt E row (1024 * j + k.val) * sAt S (1024 * j + k.val) col

/-- Eight consecutive runs of 1024 make up 8192: a sum over the runs is the sum over all. -/
theorem sum_tiles (f : ℕ → EReal) :
    ∑ j ∈ Finset.range 8, ∑ k : Fin 1024, f (1024 * j + k.val) = ∑ q : Fin 8192, f q.val := by
  rw [Finset.sum_range (fun j => ∑ k : Fin 1024, f (1024 * j + k.val))]
  have e := Equiv.sum_comp (finProdFinEquiv (m := 8) (n := 1024)) (fun q : Fin (8 * 1024) => f q.val)
  rw [Fintype.sum_prod_type] at e
  refine Eq.trans ?_ e
  refine Finset.sum_congr rfl fun j _ => Finset.sum_congr rfl fun k _ => ?_
  refine congrArg f ?_
  show 1024 * j.val + k.val = k.val + 1024 * j.val
  omega

/-- The eight tile terms of a row and a column add up to the whole row against the whole column. -/
theorem sum_tileTerm (E : Vec Ideal S8192x8192 .f32) (S : Vec Ideal S8192x256 .f32) (row : Fin 8192) (col : Fin 256) :
    ∑ j ∈ Finset.range 8, tileTerm E S row.val col.val j = ∑ q : Fin 8192, E (ix2 row q) * S (ix2 q col) := by
  unfold tileTerm
  rw [sum_tiles (fun q => eAt E row.val q * sAt S q col.val)]
  refine Finset.sum_congr rfl fun q _ => ?_
  unfold eAt sAt
  rw [dif_pos ⟨row.isLt, q.isLt⟩, dif_pos ⟨q.isLt, col.isLt⟩]

section
variable (V : (c : Dev nD) → (b : Ref sig .tc) → Buf (Elt Ideal) ((c : Thread nD τ).loc b))

/-- The two arrays the region reads, at their literal types. -/
abbrev eArr (c : Dev nD) : Vec Ideal S8192x8192 .f32 := V c main_arg2
abbrev sArr (c : Dev nD) : Vec Ideal S8192x256 .f32 := V c main_v7

/-- The three windows' block indices at point t, decided over the grid: (t / 8, t % 8), (t % 8, 0), (t / 8, 0). -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The left tile at point t is rows 1024 (t / 8) … and columns 1024 (t % 8) … of the 8192 × 8192 array. -/
theorem eblk_apply (c : Dev nD) (t : Fin cfg1.N) (r k : Fin 1024) :
    (iblk1 V c 0 t : Vec Ideal S1024x1024 .f32) (ix2 r k)
      = eAt (eArr V c) (1024 * (t.val / 8) + r.val) (1024 * (t.val % 8) + k.val) := by
  obtain ⟨e0, e1, -, -, -, -⟩ := idx_facts1 t
  have hN : cfg1.N = 64 := N_1
  have ht : t.val < 64 := hN ▸ t.isLt
  have hr := r.isLt
  have hk := k.isLt
  unfold eAt
  rw [dif_pos ⟨by omega, by omega⟩]
  unfold iblk1
  rw [View.read_apply]
  show V c main_arg2 _ = V c main_arg2 _
  congr 1
  funext a
  apply Fin.ext
  match a with
  | ⟨0, _⟩ => show win1_0.index t (0 : Fin 2) * 1024 + 1 * r.val = 1024 * (t.val / 8) + r.val; rw [e0]; omega
  | ⟨1, _⟩ => show win1_0.index t (1 : Fin 2) * 1024 + 1 * k.val = 1024 * (t.val % 8) + k.val; rw [e1]; omega

/-- The right tile at point t is rows 1024 (t % 8) … of the 8192 × 256 array. -/
theorem sblk_apply (c : Dev nD) (t : Fin cfg1.N) (k : Fin 1024) (col : Fin 256) :
    (iblk1 V c 1 t : Vec Ideal S1024x256 .f32) (ix2 k col)
      = sAt (sArr V c) (1024 * (t.val % 8) + k.val) col.val := by
  obtain ⟨-, -, e0, e1, -, -⟩ := idx_facts1 t
  have hN : cfg1.N = 64 := N_1
  have ht : t.val < 64 := hN ▸ t.isLt
  have hk := k.isLt
  have hc := col.isLt
  unfold sAt
  rw [dif_pos ⟨by omega, by omega⟩]
  unfold iblk1
  rw [View.read_apply]
  show V c main_v7 _ = V c main_v7 _
  congr 1
  funext a
  apply Fin.ext
  match a with
  | ⟨0, _⟩ => show win1_1.index t (0 : Fin 2) * 1024 + 1 * k.val = 1024 * (t.val % 8) + k.val; rw [e0]; omega
  | ⟨1, _⟩ => show win1_1.index t (1 : Fin 2) * 256 + 1 * col.val = col.val; rw [e1]; omega

end

section
variable (V : (c : Dev nD) → (b : Ref sig .tc) → Buf (Elt Ideal) ((c : Thread nD τ).loc b))

/-- One point's update of the accumulator, at an index: what was there (zero where the inner coordinate is 0) plus the
    term of column tile n % 8 for the row of row tile n / 8. -/
theorem acc_step (c : Dev nD) (n : ℕ) (h : n < cfg1.N) (r : Fin 1024) (col : Fin 256) :
    accAt1 V c (n + 1) (ix2 r col)
      = (if n % 8 = 0 then 0 else accAt1 V c n (ix2 r col))
        + tileTerm (eArr V c) (sArr V c) (1024 * (n / 8) + r.val) col.val (n % 8) := by
  rw [accAt1, dif_pos h]
  refine (pay2_apply (iblk1 V c 0 ⟨n, h⟩) (iblk1 V c 1 ⟨n, h⟩) _ r col).trans ?_
  congr 1
  · by_cases h0 : n % 8 = 0
    · rw [if_pos h0, if_pos h0]; exact pay1_apply r col
    · rw [if_neg h0, if_neg h0]
  · unfold tileTerm
    refine Finset.sum_congr rfl fun k _ => ?_
    rw [eblk_apply V c ⟨n, h⟩ r k, sblk_apply V c ⟨n, h⟩ k col]

/-- The accumulator after point n, at an index: the terms of column tiles 0 … n % 8 for the row of row tile n / 8. -/
theorem acc_closed (c : Dev nD) : ∀ (n : ℕ) (h : n < cfg1.N) (r : Fin 1024) (col : Fin 256),
    accAt1 V c (n + 1) (ix2 r col)
      = ∑ j ∈ Finset.range (n % 8 + 1), tileTerm (eArr V c) (sArr V c) (1024 * (n / 8) + r.val) col.val j := by
  intro n
  induction n with
  | zero =>
    intro h r col
    rw [acc_step V c 0 h r col, if_pos (by decide)]
    simp only [Nat.zero_mod, Nat.zero_div, zero_add, Finset.sum_range_one]
  | succ m ih =>
    intro h r col
    rw [acc_step V c (m + 1) h r col]
    by_cases h0 : (m + 1) % 8 = 0
    · rw [if_pos h0, h0, zero_add]
      simp only [zero_add, Finset.sum_range_one]
    · have e1 : (m + 1) / 8 = m / 8 := by omega
      have e2 : (m + 1) % 8 = m % 8 + 1 := by omega
      rw [if_neg h0, ih (by omega) r col, e1, e2]
      exact (Finset.sum_range_succ _ _).symm

end

section
variable (V : (c : Dev nD) → (b : Ref sig .tc) → Buf (Elt Ideal) ((c : Thread nD τ).loc b))

/-- What a point with inner coordinate 7 writes back is its block of `project`: the accumulator there holds all eight
    tile terms of its rows. -/
theorem flushed_eq (c : Dev nD) (t : Fin cfg1.N) (hf : (cfg1.win 2).flush t = true) :
    (dat1 V c).flushed 2 t
      = ((cfg1.win 2).blk t).view.read (Elt Ideal) (Cert.Spec.project (eArr V c) (sArr V c)) := by
  have h7 : t.val % 8 = 7 := (flush1_2 t).mp hf
  have hN : cfg1.N = 64 := N_1
  have ht : t.val < 64 := hN ▸ t.isLt
  obtain ⟨-, -, -, -, e4, e5⟩ := idx_facts1 t
  show (cfg1.win 2).cut (grid1.coords t) ((dat1 V c).after 2 t) = _
  rw [after1_2]
  funext j
  obtain ⟨r, col, rfl⟩ : ∃ (r : Fin 1024) (col : Fin 256), j = ix2 r col := ⟨j 0, j 1, eq_ix2 j⟩
  have hr := r.isLt
  show accAt1 V c (t.val + 1) ((cfg1.win 2).xinj (grid1.coords t) (ix2 r col))
    = Cert.Spec.project (eArr V c) (sArr V c) (((cfg1.win 2).blk t).view.emb (ix2 r col))
  have hx : (cfg1.win 2).xinj (grid1.coords t) (ix2 r col) = ix2 r col :=
    funext fun a => Fin.ext (by match a with | ⟨0, _⟩ => rfl | ⟨1, _⟩ => rfl)
  have he : ((cfg1.win 2).blk t).view.emb (ix2 r col)
      = ix2 (⟨1024 * (t.val / 8) + r.val, by omega⟩ : Fin 8192) col :=
    funext fun a => Fin.ext (by
      match a with
      | ⟨0, _⟩ => show win1_2.index t (0 : Fin 2) * 1024 + 1 * r.val = 1024 * (t.val / 8) + r.val; rw [e4]; omega
      | ⟨1, _⟩ => show win1_2.index t (1 : Fin 2) * 256 + 1 * col.val = col.val; rw [e5]; omega)
  rw [hx, he, acc_closed V c t.val t.isLt r col, h7, Cert.Spec.project_apply]
  exact sum_tileTerm (eArr V c) (sArr V c) ⟨1024 * (t.val / 8) + r.val, by omega⟩ col

/-- An index of the output array is in point t's block iff each coordinate is in the block's range on its axis. -/
theorem mem_blk (t : Fin cfg1.N) (i : S8192x256.Idx) :
    i ∈ ((cfg1.win 2).blk t).view.set
      ↔ ∀ a : Fin 2, win1_2.index t a * S1024x256.size a ≤ (i a).val ∧ (i a).val < win1_2.index t a * S1024x256.size a + S1024x256.size a := by
  show i ∈ ((View.whole main_v8).slice (win1_2.rect t)).set ↔ _
  rw [View.set_slice_whole, Rect.mem_set_unit]
  exact Iff.rfl

/-- Every row r of the output lies in the block written back at the last column tile of row tile r / 1024. -/
theorem covered (i : S8192x256.Idx) :
    ∃ t : Fin cfg1.N, (cfg1.win 2).flush t = true ∧ i ∈ ((cfg1.win 2).blk t).view.set := by
  have hN : cfg1.N = 64 := N_1
  have hi0 : (i 0).val < 8192 := idx2_lt0 i
  have hi1 : (i 1).val < 256 := idx2_lt1 i
  have hlt : 8 * ((i 0).val / 1024) + 7 < cfg1.N := by rw [hN]; omega
  obtain ⟨-, -, -, -, e4, e5⟩ := idx_facts1 ⟨8 * ((i 0).val / 1024) + 7, hlt⟩
  have e4' : win1_2.index ⟨8 * ((i 0).val / 1024) + 7, hlt⟩ (0 : Fin 2) = (8 * ((i 0).val / 1024) + 7) / 8 := e4
  refine ⟨⟨8 * ((i 0).val / 1024) + 7, hlt⟩, (flush1_2 _).mpr (by show (8 * ((i 0).val / 1024) + 7) % 8 = 7; omega), ?_⟩
  rw [mem_blk]
  intro a
  match a with
  | ⟨0, _⟩ =>
    show win1_2.index ⟨8 * ((i 0).val / 1024) + 7, hlt⟩ (0 : Fin 2) * 1024 ≤ (i 0).val
      ∧ (i 0).val < win1_2.index ⟨8 * ((i 0).val / 1024) + 7, hlt⟩ (0 : Fin 2) * 1024 + 1024
    rw [e4']; omega
  | ⟨1, _⟩ =>
    show win1_2.index ⟨8 * ((i 0).val / 1024) + 7, hlt⟩ (1 : Fin 2) * 256 ≤ (i 1).val
      ∧ (i 1).val < win1_2.index ⟨8 * ((i 0).val / 1024) + 7, hlt⟩ (1 : Fin 2) * 256 + 256
    rw [e5]; omega

end

end Proj

/-- The region's output array after the run is `project` of the two arrays it read. -/
theorem proj_final (V : (c : Dev nD) → (b : Ref sig .tc) → Buf (Elt Ideal) ((c : Thread nD τ).loc b)) (c : Dev nD) :
    (dat1 (F := Ideal) V c).arrAt 2 cfg1.N
      = Cert.Spec.project (V c main_arg2) (V c main_v7) :=
  (dat1 V c).arrAt_eq_of_cover 2 (Cert.Spec.project (Proj.eArr V c) (Proj.sArr V c)) (Proj.flushed_eq V c) Proj.covered

end Cert.KernelIdeal.Run

end
-- ==== Proof.Ideal.Value.lean ====
/-
  The kernel program's result at the extended reals, as one function of its arguments: the second region's output
  array is `project` of evecs and the first region's output array, which is `spectrum` of evecs, x and the
  coefficient column the host operations computed before the regions (exp(−evals · max(t, 1e-8)), as a column).
-/
import proofs.«117679_j80891414053479_1_alg».proof.Proof.Ideal.Run
import proofs.«117679_j80891414053479_1_alg».proof.Proof.Ideal.SpecValue
import proofs.«117679_j80891414053479_1_alg».proof.Proof.Ideal.ProjValue
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section
variable (m : (ℓ : Loc nD τ sig) → Buf (Elt F) ℓ)

/-- The coefficient column as the host operations compose it from `evals` and `t`. -/
def coef (a1 : (⟨S8192, .f32⟩ : BufTy).Contents (Elt F)) (a3 : (⟨S1, .f32⟩ : BufTy).Contents (Elt F)) :
    (⟨S8192x1, .f32⟩ : BufTy).Contents (Elt F) :=
  broadcastInDim S8192x1 ![0] bcast_S8192_S8192x1_0 (Host.exp (mulf (Host.negf a1)
    (broadcastInDim S8192 ![] bcast_S_S8192 (maximumf (id (constant (F := F) S_ .f32 0x322BCC77#32)) (shapeCast _ a3 shapeCasts_S1_S_)))))

/-- The first region finds evecs, x and the coefficient column: the arguments as launched, and the host chain's result. -/
theorem E3_main_arg2 (c : Dev nD) : E3 m c main_arg2 = m ((c : Thread nD τ).loc main_arg2) :=
  (V3_of m c main_arg2 (by decide)).trans <| (V2_of m c main_arg2 (by decide)).trans <| (V1_of m c main_arg2 (by decide)).trans rfl
theorem E3_main_arg0 (c : Dev nD) : E3 m c main_arg0 = m ((c : Thread nD τ).loc main_arg0) :=
  (V3_of m c main_arg0 (by decide)).trans <| (V2_of m c main_arg0 (by decide)).trans <| (V1_of m c main_arg0 (by decide)).trans rfl
theorem E3_main_v6 (c : Dev nD) :
    E3 m c main_v6 = coef (m ((c : Thread nD τ).loc main_arg1)) (m ((c : Thread nD τ).loc main_arg3)) := by
  show StableHlo.after hostOps0_2 (StableHlo.after hostOps0_1 (StableHlo.after hostOps0 (fun b => m (c, b)))) (Proc.devRef .tc main_v6) = _
  after_results
  rfl

/-- The second region finds evecs as launched and, in the spectrum's buffer, the first region's output array. -/
theorem E4_main_arg2 (c : Dev nD) : E4 m c main_arg2 = m ((c : Thread nD τ).loc main_arg2) :=
  ((B4_arr m c 0).trans (((dat0 (E3 m) c).arrAt_in 0 rfl _).trans (A_eq0 (E3 m) c 0))).trans (E3_main_arg2 m c)
theorem E4_main_v7 (c : Dev nD) : E4 m c main_v7 = (dat0 (E3 m) c).arrAt 3 cfg0.N := B4_arr m c 3

end

/-- The kernel program's result. -/
theorem kernel_value (m : (ℓ : Loc nD τ sig) → Buf (Elt Ideal) ℓ) (c : Dev nD) :
    (dat1 (F := Ideal) (E4 m) c).arrAt 2 cfg1.N
      = Cert.Spec.project (m ((c : Thread nD τ).loc main_arg2))
          (Cert.Spec.spectrum (m ((c : Thread nD τ).loc main_arg2)) (m ((c : Thread nD τ).loc main_arg0))
            (coef (m ((c : Thread nD τ).loc main_arg1)) (m ((c : Thread nD τ).loc main_arg3)))) := by
  rw [proj_final, E4_main_arg2, E4_main_v7, spec_final, E3_main_arg2, E3_main_arg0, E3_main_v6]

end Cert.KernelIdeal.Run

end
-- ==== Proof.RefValue.lean ====
/-
  The reference's result at the extended reals is `project E (spectrum E X K)`: its first product is Eᵀ X as a plain
  sum over the rows, the broadcast coefficient multiplies it from the left (the product of extended reals commutes),
  and its second product is a plain sum over the columns.
-/
import proofs.«117679_j80891414053479_1_alg».proof.Proof.Gen.ReferenceIdeal.Run
import proofs.«117679_j80891414053479_1_alg».proof.Proof.Gen.ReferenceIdeal.Read
import proofs.«117679_j80891414053479_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Read

/-- The reference's last stage is the specification, with the coefficient column the reference's own stage for it. -/
theorem ref_eq (x0 : (⟨S8192x256, .f32⟩ : BufTy).Contents (Elt Ideal)) (x1 : (⟨S8192, .f32⟩ : BufTy).Contents (Elt Ideal))
    (x2 : (⟨S8192x8192, .f32⟩ : BufTy).Contents (Elt Ideal)) (x3 : (⟨S1, .f32⟩ : BufTy).Contents (Elt Ideal)) :
    val_main_v10 (F := Ideal) x0 x1 x2 x3
      = Cert.Spec.project x2 (Cert.Spec.spectrum x2 x0 (val_main_v7 (F := Ideal) x1 x3)) := by
  funext i
  obtain ⟨n, c, rfl⟩ : ∃ (n : Fin 8192) (c : Fin 256), i = ValueIdx.ix2 n c := ⟨i 0, i 1, ValueIdx.eq_ix2 i⟩
  rw [val_main_v10_apply, Cert.Spec.project_apply]
  refine Finset.sum_congr rfl fun q _ => ?_
  have hl : lidx_main_v10 (ValueIdx.ix2 n c) q = ValueIdx.ix2 n q :=
    funext fun a => Fin.ext (by match a with | ⟨0, _⟩ => rfl | ⟨1, _⟩ => rfl)
  have hr : ridx_main_v10 (ValueIdx.ix2 n c) q = ValueIdx.ix2 q c :=
    funext fun a => Fin.ext (by match a with | ⟨0, _⟩ => rfl | ⟨1, _⟩ => rfl)
  have hk : idx_main_v8 (ValueIdx.ix2 q c) = ValueIdx.ix2 q (0 : Fin 1) :=
    funext fun a => Fin.ext (by match a with | ⟨0, _⟩ => rfl | ⟨1, _⟩ => rfl)
  have hl2 : ∀ m : Fin 8192, lidx_main_v2 (ValueIdx.ix2 q c) m = ValueIdx.ix2 m q := fun m =>
    funext fun a => Fin.ext (by match a with | ⟨0, _⟩ => rfl | ⟨1, _⟩ => rfl)
  have hr2 : ∀ m : Fin 8192, ridx_main_v2 (ValueIdx.ix2 q c) m = ValueIdx.ix2 m c := fun m =>
    funext fun a => Fin.ext (by match a with | ⟨0, _⟩ => rfl | ⟨1, _⟩ => rfl)
  rw [hl, hr, val_main_v9_apply, val_main_v8_apply, val_main_v2_apply, hk, Cert.Spec.spectrum_apply, Ideal.mulf_def]
  simp only [hl2, hr2]
  rw [mul_comm (val_main_v7 (F := Ideal) x1 x3 (ValueIdx.ix2 q (0 : Fin 1)))]

end Cert.ReferenceIdeal.RefValue

end
-- ==== Proof.lean ====
/-
  Diffusion in a spectral basis: out = E · (K ⊙ (Eᵀ X)), with E = evecs (8192 × 8192), X = x (8192 × 256) and the
  coefficient column K[q] = exp(−evals[q] · max(t, 1e-8)).

  The kernel program computes it in two tiled passes over E. The first pass runs an 8 × 8 grid (column tile, row tile):
  for a column tile it adds the 1024-row tile products E_tileᵀ X_tile into an accumulator that is cleared at the first
  row tile, and at the last row tile writes the accumulator, each row scaled by its coefficient, to the spectrum array.
  The second pass does the same for E · spectrum over (row tile, column tile). The reference forms Eᵀ X and
  E · (K ⊙ ·) as two whole products, scaling from the left.

  At the extended reals a tile sum of tile sums is the whole sum (addition there is commutative and associative), the
  matrix unit's product into a zero accumulator is the plain sum of products, a change of float format is the
  identity, and the product commutes; so both programs end at `project E (spectrum E X K)` of the same arguments and
  no finiteness of the inputs is used. The host operations that compute K are the same operations in both programs.

  The frames: each program terminates without a fault and leaves its arguments as launched. For the two kernel
  programs this is the run of @main item by item — three stretches of host operations, then each pass as a pipelined
  region whose per-point obligation is the body's Hoare triple with the accumulator carried in the region's invariant;
  for the reference it is its run with the result dropped. The idealization rewrote no operation, so `preserves` is
  trivial.
-/
import proofs.«117679_j80891414053479_1_alg».proof.Defs
import proofs.«117679_j80891414053479_1_alg».proof.Proof.Gen.Kernel
import proofs.«117679_j80891414053479_1_alg».proof.Proof.Gen.KernelIdeal
import proofs.«117679_j80891414053479_1_alg».proof.Proof.Gen.ReferenceIdeal
import proofs.«117679_j80891414053479_1_alg».proof.Proof.Gen.Pre_finite_inputs
import proofs.«117679_j80891414053479_1_alg».proof.Proof.Gen.ReferenceIdeal.Run
import proofs.«117679_j80891414053479_1_alg».proof.Proof.Gen.ReferenceIdeal.Read
import proofs.«117679_j80891414053479_1_alg».proof.Proof.Bits.Run
import proofs.«117679_j80891414053479_1_alg».proof.Proof.Ideal.Run
import proofs.«117679_j80891414053479_1_alg».proof.Proof.Ideal.Value
import proofs.«117679_j80891414053479_1_alg».proof.Proof.RefValue
import Idealize.ShloMosaic.Adequacy
import Idealize.ShloMosaic.Init

noncomputable section

namespace Cert.Proof

open Idealize.ShloMosaic Idealize.ShloMosaic.TcCoe Idealize.SL.Sem

/-- The coefficient column is the same composition of host operations in the reference and in the kernel program. -/
theorem coef_eq (x1 : (⟨Cert.ReferenceIdeal.S8192, .f32⟩ : BufTy).Contents (Elt Ideal))
    (x3 : (⟨Cert.ReferenceIdeal.S1, .f32⟩ : BufTy).Contents (Elt Ideal)) :
    Cert.ReferenceIdeal.Read.val_main_v7 (F := Ideal) x1 x3 = Cert.KernelIdeal.Run.coef (F := Ideal) x1 x3 := rfl

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Run.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Run.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end with the result buffer at `project E (spectrum E X K)` of the launch arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono
      (fun _ h c => ⟨(h c).1.trans (Cert.KernelIdeal.Run.kernel_value m c), (h c).2⟩)
      (Cert.KernelIdeal.Run.run_main (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, coef_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
